-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg2 : IVec S2x640000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S2x640000 32 := broadcastInDim S2x640000 ![] bcast_S_S2x640000 main_c_14
  let main_v40 : IVec S2x640000 1 := cmpi .sge main_arg2 main_v39
  let main_c_15 : IVec S_ 32 := constantI S_ 32 10000#32
  let main_v41 : IVec S2x640000 32 := broadcastInDim S2x640000 ![] bcast_S_S2x640000 main_c_15
  let main_v42 : IVec S2x640000 1 := cmpi .slt main_arg2 main_v41
  let main_v43 : IVec S2x640000 1 := andi main_v40 main_v42
  let main_c_16 : IVec S_ 1 := constantI S_ 1 1#1
  let main_v44 : IVec S_ 1 := (fun x v => Host.reduce IntOp.andi x v reducesTo_S2x640000_S_d0_1 h_S_) main_v43 main_c_16
  let main_v45 : IVec S_ 1 := andi main_v38 main_v44
  main_v45

def fn_part1 {F : FTy → Type} [FloatOps F] (main_arg2 : IVec S2x640000 32) (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_v33

def fn {F : FTy → Type} [FloatOps F] (main_arg0 : FVec F S1 .f32) (main_arg1 : FVec F S10000x128 .f32) (main_arg2 : IVec S2x640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_v13 main_v16
-- ==== Kernel.lean ====
abbrev S1 : Shape := ⟨1, ![1]⟩
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S10000x10000 : Shape := ⟨2, ![10000, 10000]⟩
abbrev S640000x2 : Shape := ⟨2, ![640000, 2]⟩
abbrev S10000x1 : Shape := ⟨2, ![10000, 1]⟩
abbrev S10000x2 : Shape := ⟨2, ![10000, 2]⟩
abbrev S1x128 : Shape := ⟨2, ![1, 128]⟩
abbrev S400x10000 : Shape := ⟨2, ![400, 10000]⟩
abbrev S400x128 : Shape := ⟨2, ![400, 128]⟩

abbrev nBuf : Space → Nat
  | .hbm => 92
  | .vmem => 27
  | .smem => 0
  | _ => 0

abbrev bufTy : (tb : Table) → Fin (tcTables nBuf tb) → BufTy
  | .hbm, ⟨0, _⟩ => ⟨S1, .f32⟩
  | .hbm, ⟨1, _⟩ => ⟨S10000x128, .f32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S10000, .f32⟩
  | .hbm, ⟨17, _⟩ => ⟨S640000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S_, .f32⟩
  | .hbm, ⟨43, _⟩ => ⟨S10000x10000, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .i32⟩
  | .hbm, ⟨60, _⟩ => ⟨S640000x2, .i32⟩
  | .hbm, ⟨61, _⟩ => ⟨S10000x10000, .f32⟩
  | .hbm, ⟨62, _⟩ => ⟨S10000, .i32⟩
  | .hbm, ⟨63, _⟩ => ⟨S10000, .f32⟩
  | .hbm, ⟨64, _⟩ => ⟨S_, .i32⟩
  | .hbm, ⟨65, _⟩ => ⟨S10000, .i32⟩
  | .hbm, ⟨66, _⟩ => ⟨S10000, .i1⟩
  | .hbm, ⟨67, _⟩ => ⟨S_, .i32⟩
  | .hbm, ⟨68, _⟩ => ⟨S10000, .i32⟩
  | .hbm, ⟨69, _⟩ => ⟨S10000, .i32⟩
  | .hbm, ⟨70, _⟩ => ⟨S10000, .i32⟩
  | .hbm, ⟨71, _⟩ => ⟨S_, .i32⟩
  | .hbm, ⟨72, _⟩ => ⟨S10000, .i32⟩
  | .hbm, ⟨73, _⟩ => ⟨S10000, .i1⟩
  | .hbm, ⟨74, _⟩ => ⟨S_, .i32⟩
  | .hbm, ⟨75, _⟩ => ⟨S10000, .i32⟩
  | .hbm, ⟨76, _⟩ => ⟨S10000, .i32⟩
  | .hbm, ⟨77, _⟩ => ⟨S10000, .i32⟩
  | .hbm, ⟨78, _⟩ => ⟨S10000x1, .i32⟩
  | .hbm, ⟨79, _⟩ => ⟨S10000x1, .i32⟩
  | .hbm, ⟨80, _⟩ => ⟨S10000x2, .i32⟩
  | .hbm, ⟨81, _⟩ => ⟨S10000x10000, .f32⟩
  | .hbm, ⟨82, _⟩ => ⟨S10000x10000, .bf16⟩
  | .hbm, ⟨83, _⟩ => ⟨S10000x128, .bf16⟩
  | .hbm, ⟨84, _⟩ => ⟨S1x128, .f32⟩
  | .hbm, ⟨85, _⟩ => ⟨S10000x128, .bf16⟩
  | .hbm, ⟨86, _⟩ => ⟨S10000x128, .bf16⟩
  | .hbm, ⟨87, _⟩ => ⟨S1x128, .f32⟩
  | .hbm, ⟨88, _⟩ => ⟨S10000x128, .bf16⟩
  | .hbm, ⟨89, _⟩ => ⟨S10000x128, .bf16⟩
  | .hbm, ⟨90, _⟩ => ⟨S1x128, .f32⟩
  | .hbm, ⟨91, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .bf16⟩
  | .local _ .vmem, ⟨4, _⟩ => ⟨S400x10000, .bf16⟩
  | .local _ .vmem, ⟨5, _⟩ => ⟨S10000x128, .bf16⟩
  | .local _ .vmem, ⟨6, _⟩ => ⟨S1x128, .f32⟩
  | .local _ .vmem, ⟨7, _⟩ => ⟨S400x128, .bf16⟩
  | .local _ .vmem, ⟨8, _⟩ => ⟨S400x128, .bf16⟩
  | .local _ .vmem, ⟨9, _⟩ => ⟨S10000x128, .bf16⟩
  | .local _ .vmem, ⟨10, _⟩ => ⟨S128x128, .f32⟩
  | .local _ .vmem, ⟨11, _⟩ => ⟨S10000x128, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1x128, .f32⟩
  | .local _ .vmem, ⟨16, _⟩ => ⟨S400x128, .bf16⟩
  | .local _ .vmem, ⟨17, _⟩ => ⟨S400x128, .bf16⟩
  | .local _ .vmem, ⟨18, _⟩ => ⟨S10000x128, .bf16⟩
  | .local _ .vmem, ⟨19, _⟩ => ⟨S128x128, .f32⟩
  | .local _ .vmem, ⟨20, _⟩ => ⟨S10000x128, .bf16⟩
  | .local _ .vmem, ⟨21, _⟩ => ⟨S400x10000, .bf16⟩
  | .local _ .vmem, ⟨22, _⟩ => ⟨S400x10000, .bf16⟩
  | .local _ .vmem, ⟨23, _⟩ => ⟨S10000x128, .bf16⟩
  | .local _ .vmem, ⟨24, _⟩ => ⟨S1x128, .f32⟩
  | .local _ .vmem, ⟨25, _⟩ => ⟨S400x128, .f32⟩
  | .local _ .vmem, ⟨26, _⟩ => ⟨S400x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg2_0 : Ref sig .tc := ⟨.vmem, 24, rfl⟩
abbrev cc5_stg3_0 : Ref sig .tc := ⟨.vmem, 25, rfl⟩
abbrev cc5_stg3_1 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17
abbrev cc4_sem0_0 : DmaSem sig := 18
abbrev cc4_sem1_0 : DmaSem sig := 19
abbrev cc4_sem2_0 : DmaSem sig := 20
abbrev cc5_sem0_0 : DmaSem sig := 21
abbrev cc5_sem0_1 : DmaSem sig := 22
abbrev cc5_sem1_0 : DmaSem sig := 23
abbrev cc5_sem2_0 : DmaSem sig := 24
abbrev cc5_sem3_0 : DmaSem sig := 25
abbrev cc5_sem3_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S10000x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10000x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10000x10000 : S_.BroadcastsInDim S10000x10000 (![] : Fin 0 → Fin S10000x10000.rank)
  concatenates_S640000x1_S640000x1_S640000x2_d1 : Shape.Concatenates [S640000x1, S640000x1] S640000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10000x10000_S640000x2_S640000_n_01_01_1_wf : ScatterDims.WF S10000x10000 S640000x2 S640000 [] [0, 1] [0, 1] 1
  scatter_S10000x10000_S10000x2_S10000_n_01_01_1_wf : ScatterDims.WF S10000x10000 S10000x2 S10000 [] [0, 1] [0, 1] 1
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .bf16 = 32 ∨ (Rect.block (s := S10000x128) S400x128.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .bf16 = 32 ∨ (Rect.block (s := S10000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .bf16 = 32 ∨ (Rect.block (s := S10000x128) S400x128.size (cc3_transform_3 i) (hinb3_3 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S10000x128.size a
  hwx4_0 : ∀ i : grid4.Coords, EltTy.bits .bf16 = 32 ∨ (Rect.block (s := S10000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S10000x128.size a
  hwx4_2 : ∀ i : grid4.Coords, EltTy.bits .bf16 = 32 ∨ (Rect.block (s := S10000x128) S10000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x128.size a ≤ S10000x128.size a
  hwx5_3 : ∀ i : grid5.Coords, EltTy.bits .f32 = 32 ∨ (Rect.block (s := S10000x128) S400x128.size (cc5_transform_3 i) (hinb5_3 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S10000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S400x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S1 : Shape := ⟨1, ![1]⟩
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩

abbrev nBuf : Space → Nat
  | .hbm => 177
  | .vmem => 0
  | .smem => 0
  | _ => 0

abbrev hbmTy0_0 (i : Nat) : BufTy := match i % 128 with
  | 0 => ⟨S1, .f32⟩
  | 1 => ⟨S10000x128, .f32⟩
  | 2 => ⟨S2x640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S10000x128, .f32⟩
  | 14 => ⟨S_, .f32⟩
  | 15 => ⟨S640000, .f32⟩
  | 16 => ⟨S_, .f32⟩
  | 17 => ⟨S10000, .f32⟩
  | 18 => ⟨S640000x1, .i32⟩
  | 19 => ⟨S10000, .f32⟩
  | 20 => ⟨S_, .f32⟩
  | 21 => ⟨S10000, .f32⟩
  | 22 => ⟨S10000, .f32⟩
  | 23 => ⟨S10000, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S10000x128, .f32⟩
  | 57 => ⟨S640000x1, .i32⟩
  | 58 => ⟨S10000x128, .f32⟩
  | 59 => ⟨S10000, .f32⟩
  | 60 => ⟨S10000x1, .f32⟩
  | 61 => ⟨S10000x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S10000x128, .f32⟩
  | 68 => ⟨S10000x128, .f32⟩
  | 69 => ⟨S_, .f32⟩
  | 70 => ⟨S640000, .f32⟩
  | 71 => ⟨S_, .f32⟩
  | 72 => ⟨S10000, .f32⟩
  | 73 => ⟨S640000x1, .i32⟩
  | 74 => ⟨S10000, .f32⟩
  | 75 => ⟨S_, .f32⟩
  | 76 => ⟨S10000, .f32⟩
  | 77 => ⟨S10000, .f32⟩
  | 78 => ⟨S10000, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x1, .f32⟩
  | 108 => ⟨S640000x128, .f32⟩
  | 109 => ⟨S640000x128, .f32⟩
  | 110 => ⟨S_, .f32⟩
  | 111 => ⟨S10000x128, .f32⟩
  | 112 => ⟨S640000x1, .i32⟩
  | 113 => ⟨S10000x128, .f32⟩
  | 114 => ⟨S10000, .f32⟩
  | 115 => ⟨S10000x1, .f32⟩
  | 116 => ⟨S10000x128, .f32⟩
  | 117 => ⟨S10000x128, .f32⟩
  | 118 => ⟨S10000x128, .f32⟩
  | 119 => ⟨S1x128, .f32⟩
  | 120 => ⟨S10000x128, .f32⟩
  | 121 => ⟨S10000x128, .f32⟩
  | 122 => ⟨S10000x128, .f32⟩
  | 123 => ⟨S10000x128, .f32⟩
  | 124 => ⟨S_, .f32⟩
  | 125 => ⟨S640000, .f32⟩
  | 126 => ⟨S_, .f32⟩
  | 127 => ⟨S10000, .f32⟩
  | _ => ⟨S1, .f32⟩

abbrev hbmTy0_1 (i : Nat) : BufTy := match i % 128 with
  | 0 => ⟨S640000x1, .i32⟩
  | 1 => ⟨S10000, .f32⟩
  | 2 => ⟨S_, .f32⟩
  | 3 => ⟨S10000, .f32⟩
  | 4 => ⟨S10000, .f32⟩
  | 5 => ⟨S10000, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000, .f32⟩
  | 24 => ⟨S640000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S640000x1, .f32⟩
  | 35 => ⟨S640000x128, .f32⟩
  | 36 => ⟨S640000x128, .f32⟩
  | 37 => ⟨S_, .f32⟩
  | 38 => ⟨S10000x128, .f32⟩
  | 39 => ⟨S640000x1, .i32⟩
  | 40 => ⟨S10000x128, .f32⟩
  | 41 => ⟨S10000, .f32⟩
  | 42 => ⟨S10000x1, .f32⟩
  | 43 => ⟨S10000x128, .f32⟩
  | 44 => ⟨S10000x128, .f32⟩
  | 45 => ⟨S10000x128, .f32⟩
  | 46 => ⟨S1x128, .f32⟩
  | 47 => ⟨S10000x128, .f32⟩
  | 48 => ⟨S10000x128, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_20 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_21 : Ref sig .tc := ⟨.hbm, 134, rfl⟩
abbrev main_v102 : Ref sig .tc := ⟨.hbm, 135, rfl⟩
abbrev main_v103 : Ref sig .tc := ⟨.hbm, 136, rfl⟩
abbrev main_c_22 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_23 : Ref sig .tc := ⟨.hbm, 143, rfl⟩
abbrev main_v109 : Ref sig .tc := ⟨.hbm, 144, rfl⟩
abbrev main_v110 : Ref sig .tc := ⟨.hbm, 145, rfl⟩
abbrev main_c_24 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_25 : Ref sig .tc := ⟨.hbm, 153, rfl⟩
abbrev main_v117 : Ref sig .tc := ⟨.hbm, 154, rfl⟩
abbrev main_v118 : Ref sig .tc := ⟨.hbm, 155, rfl⟩
abbrev main_c_26 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_27 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Spec.lean ====
/-
  The mathematics both programs compute, stated once over plain finite index types.

  A graph of `N` nodes has `E` directed edges `src e → dst e`. With the degree `deg n = #{e | dst e = n} + 1`
  (the self-loop counted) and `dis n = deg n ^ (-1/2)`, one graph-convolution layer sends node features `y`
  (already multiplied by the layer's weight matrix) to

    out[n, c] = Σ_{e : dst e = n} y[src e, c] · dis (src e) · dis (dst e)  +  y[n, c] · dis n · dis n  +  b[c]   (the edge-list form)

  and the same layer written through the dense normalized adjacency matrix
  `adj[n, k] = Σ_{e : dst e = n, src e = k} dis (src e) · dis (dst e) + [n = k] · dis n · dis n` is

    out[n, c] = Σ_k adj[n, k] · y[k, c]  +  b[c]                                                            (the dense form).

  The two agree on the extended reals because every `dis n` is nonnegative: a product distributes over a sum of
  nonnegative extended reals, whatever the other factor is. No finiteness of the features is needed.
-/
import Idealize.ShloMosaic.Lib.ValueIdx
import Idealize.ShloMosaic.PureOps.Ideal.Laws

noncomputable section

open scoped BigOperators

namespace Gcn

open Idealize.ShloMosaic Idealize.ShloMosaic.ValueIdx

/-- Every entry of the edge list is a node number: `0 ≤ · < 10000`. -/
def InRange (ei : IVec ⟨2, ![2, 640000]⟩ 32) : Prop := ∀ i, 0 ≤ (ei i).toInt ∧ (ei i).toInt < 10000

/-- The source node of edge `e`: row 0 of the edge list, read signed and clamped into the node range. -/
def srcOf (ei : IVec ⟨2, ![2, 640000]⟩ 32) (e : Fin 640000) : Fin 10000 :=
  ⟨min (ei (ix2 (0 : Fin 2) e)).toInt.toNat 9999, by omega⟩

/-- The target node of edge `e`: row 1 of the edge list, read signed and clamped into the node range. -/
def dstOf (ei : IVec ⟨2, ![2, 640000]⟩ 32) (e : Fin 640000) : Fin 10000 :=
  ⟨min (ei (ix2 (1 : Fin 2) e)).toInt.toNat 9999, by omega⟩

/-- The float one both programs add per edge and per self-loop. -/
def one : EReal := Ideal.ofBits .f32 0x3F800000#32

/-- The pattern `0x3F800000` has sign 0, biased exponent 127 and zero fraction: it denotes `2 ^ 0 · 1 = 1`. -/
theorem one_eq : one = 1 := by
  unfold one
  simp [Ideal.ofBits, Ideal.ieee, -EReal.coe_mul]
  norm_num

theorem one_nonneg : 0 ≤ one := by
  rw [one_eq]; exact zero_le_one

/-- The reciprocal square root keeps the nonnegative extended reals: `⊤ ↦ 0`, `0 ↦ ⊤`, and a positive real goes to
    a positive real. -/
theorem rsqrt_nonneg {x : EReal} (hx : 0 ≤ x) : 0 ≤ Ideal.rsqrt x := by
  induction x using EReal.rec with
  | bot => simp at hx
  | top => simp
  | coe r =>
    have hr : 0 ≤ r := by exact_mod_cast hx
    rw [Ideal.rsqrt_coe]
    split_ifs with h1 h2
    · exact absurd h1 (not_lt.mpr hr)
    · exact le_top
    · exact_mod_cast inv_nonneg.mpr (Real.sqrt_nonneg r)

/-- A product distributes over a finite sum of nonnegative extended reals, whatever the other factor is. -/
theorem sum_mul_of_nonneg {ι : Type*} (s : Finset ι) (a : ι → EReal) (c : EReal) (ha : ∀ i ∈ s, 0 ≤ a i) :
    (∑ i ∈ s, a i) * c = ∑ i ∈ s, a i * c := by
  classical
  induction s using Finset.induction_on with
  | empty => simp
  | insert i s hi ih =>
    have hs : ∀ j ∈ s, 0 ≤ a j := fun j hj => ha j (Finset.mem_insert_of_mem hj)
    rw [Finset.sum_insert hi, Finset.sum_insert hi,
      EReal.right_distrib_of_nonneg (ha i (Finset.mem_insert_self i s)) (Finset.sum_nonneg hs), ih hs]

section Layer

variable {E N C : ℕ} (src dst : Fin E → Fin N)

/-- In-degree plus the self-loop, accumulated from zero as both programs do. -/
def deg (n : Fin N) : EReal := (0 + ∑ _e ∈ Finset.univ.filter (fun e : Fin E => dst e = n), one) + one

/-- `deg ^ (-1/2)`. -/
def dis (n : Fin N) : EReal := Ideal.rsqrt (deg dst n)

theorem deg_nonneg (n : Fin N) : 0 ≤ deg dst n := by
  unfold deg
  rw [zero_add]
  exact add_nonneg (Finset.sum_nonneg fun _ _ => one_nonneg) one_nonneg

theorem dis_nonneg (n : Fin N) : 0 ≤ dis dst n :=
  rsqrt_nonneg (deg_nonneg dst n)

/-- The weight of edge `e`. -/
def nrm (e : Fin E) : EReal := dis dst (src e) * dis dst (dst e)

theorem nrm_nonneg (e : Fin E) : 0 ≤ nrm src dst e :=
  mul_nonneg (dis_nonneg dst _) (dis_nonneg dst _)

/-- The dense normalized adjacency matrix with self-loops, accumulated from zero: first the edges, then the diagonal. -/
def adj (n k : Fin N) : EReal :=
  (0 + ∑ e ∈ Finset.univ.filter (fun e : Fin E => dst e = n ∧ src e = k), nrm src dst e)
    + ∑ i ∈ Finset.univ.filter (fun i : Fin N => i = n ∧ i = k), dis dst i * dis dst i

/-- Features times a weight matrix. -/
def lin {D : ℕ} (h : Fin N → Fin D → EReal) (W : Fin D → Fin C → EReal) (k : Fin N) (c : Fin C) : EReal :=
  ∑ j : Fin D, h k j * W j c

/-- One layer in the dense form. -/
def denseLayer (y : Fin N → Fin C → EReal) (b : Fin C → EReal) (n : Fin N) (c : Fin C) : EReal :=
  (∑ k : Fin N, adj src dst n k * y k c) + b c

/-- One layer in the edge-list form. -/
def sparseLayer (y : Fin N → Fin C → EReal) (b : Fin C → EReal) (n : Fin N) (c : Fin C) : EReal :=
  ((0 + ∑ e ∈ Finset.univ.filter (fun e : Fin E => dst e = n), y (src e) c * nrm src dst e)
    + y n c * (dis dst n * dis dst n)) + b c

/-- The dense form is the edge-list form. -/
theorem denseLayer_eq_sparseLayer (y : Fin N → Fin C → EReal) (b : Fin C → EReal) :
    denseLayer src dst y b = sparseLayer src dst y b := by
  funext n c
  unfold denseLayer sparseLayer
  congr 1
  -- the edge part and the diagonal part of each matrix entry are nonnegative, so the entry times `y k c` splits
  have hA : ∀ k : Fin N, 0 ≤ ∑ e ∈ Finset.univ.filter (fun e : Fin E => dst e = n ∧ src e = k), nrm src dst e :=
    fun k => Finset.sum_nonneg fun e _ => nrm_nonneg src dst e
  have hD : ∀ k : Fin N, 0 ≤ ∑ i ∈ Finset.univ.filter (fun i : Fin N => i = n ∧ i = k), dis dst i * dis dst i :=
    fun k => Finset.sum_nonneg fun i _ => mul_nonneg (dis_nonneg dst i) (dis_nonneg dst i)
  have hsplit : ∀ k : Fin N, adj src dst n k * y k c
      = (∑ e ∈ (Finset.univ.filter (fun e : Fin E => dst e = n)).filter (fun e => src e = k),
            nrm src dst e * y (src e) c)
        + ∑ i ∈ (Finset.univ.filter (fun i : Fin N => i = n)).filter (fun i => i = k),
            dis dst i * dis dst i * y i c := by
    intro k
    unfold adj
    rw [zero_add, EReal.right_distrib_of_nonneg (hA k) (hD k),
      sum_mul_of_nonneg _ _ _ (fun e _ => nrm_nonneg src dst e),
      sum_mul_of_nonneg _ _ _ (fun i _ => mul_nonneg (dis_nonneg dst i) (dis_nonneg dst i)),
      Finset.filter_filter, Finset.filter_filter]
    congr 1
    · refine Finset.sum_congr rfl fun e he => ?_
      rw [(Finset.mem_filter.mp he).2.2]
    · refine Finset.sum_congr rfl fun i hi => ?_
      rw [(Finset.mem_filter.mp hi).2.2]
  -- every edge into `n` lies in exactly one fiber `k = src e`, and the diagonal contributes at `k = n` only
  rw [Finset.sum_congr rfl fun k _ => hsplit k, Finset.sum_add_distrib,
    Finset.sum_fiberwise, Finset.sum_fiberwise, Finset.filter_eq', if_pos (Finset.mem_univ n),
    Finset.sum_singleton, zero_add]
  congr 1
  · exact Finset.sum_congr rfl fun e _ => mul_comm _ _
  · exact mul_comm _ _

/-- Three layers, `tanh` after the first two, in the dense form. -/
def netDense (x : Fin N → Fin C → EReal) (W1 : Fin C → Fin C → EReal) (b1 : Fin C → EReal)
    (W2 : Fin C → Fin C → EReal) (b2 : Fin C → EReal) (W3 : Fin C → Fin C → EReal) (b3 : Fin C → EReal) :
    Fin N → Fin C → EReal :=
  denseLayer src dst (lin (fun n c => Ideal.tanh (denseLayer src dst
    (lin (fun n c => Ideal.tanh (denseLayer src dst (lin x W1) b1 n c)) W2) b2 n c)) W3) b3

/-- Three layers, `tanh` after the first two, in the edge-list form. -/
def netSparse (x : Fin N → Fin C → EReal) (W1 : Fin C → Fin C → EReal) (b1 : Fin C → EReal)
    (W2 : Fin C → Fin C → EReal) (b2 : Fin C → EReal) (W3 : Fin C → Fin C → EReal) (b3 : Fin C → EReal) :
    Fin N → Fin C → EReal :=
  sparseLayer src dst (lin (fun n c => Ideal.tanh (sparseLayer src dst
    (lin (fun n c => Ideal.tanh (sparseLayer src dst (lin x W1) b1 n c)) W2) b2 n c)) W3) b3

theorem netDense_eq_netSparse (x : Fin N → Fin C → EReal) (W1 : Fin C → Fin C → EReal) (b1 : Fin C → EReal)
    (W2 : Fin C → Fin C → EReal) (b2 : Fin C → EReal) (W3 : Fin C → Fin C → EReal) (b3 : Fin C → EReal) :
    netDense src dst x W1 b1 W2 b2 W3 b3 = netSparse src dst x W1 b1 W2 b2 W3 b3 := by
  unfold netDense netSparse
  simp only [denseLayer_eq_sparseLayer]

end Layer

end Gcn

end
-- ==== Proof.SpecNet.lean ====
/-
  The three-layer network in the dense form over an ARBITRARY square matrix `A` in the adjacency's place:
  `out = A · (tanh (A · (tanh (A · (x W1) + b1)) W2 + b2)) W3 + b3`. At `A = adj` it is `netDense`.
-/
import proofs.«404086_j7035156431295_1_alg».proof.Proof.Spec

noncomputable section

open scoped BigOperators

namespace Gcn

open Idealize.ShloMosaic

variable {N C : ℕ}

/-- One layer through a dense matrix: `out[n, c] = Σ_k A[n, k] · y[k, c] + b[c]`. -/
def denseLayerA (A : Fin N → Fin N → EReal) (y : Fin N → Fin C → EReal) (b : Fin C → EReal) (n : Fin N) (c : Fin C) : EReal :=
  (∑ k : Fin N, A n k * y k c) + b c

/-- Three layers through the same dense matrix, `tanh` after the first two. -/
def netDenseA (A : Fin N → Fin N → EReal) (x : Fin N → Fin C → EReal) (W1 : Fin C → Fin C → EReal) (b1 : Fin C → EReal)
    (W2 : Fin C → Fin C → EReal) (b2 : Fin C → EReal) (W3 : Fin C → Fin C → EReal) (b3 : Fin C → EReal) :
    Fin N → Fin C → EReal :=
  denseLayerA A (lin (fun n c => Ideal.tanh (denseLayerA A
    (lin (fun n c => Ideal.tanh (denseLayerA A (lin x W1) b1 n c)) W2) b2 n c)) W3) b3

/-- At the normalized adjacency matrix it is the dense form of the network. -/
theorem netDenseA_adj {E : ℕ} (src dst : Fin E → Fin N) (x : Fin N → Fin C → EReal) (W1 : Fin C → Fin C → EReal) (b1 : Fin C → EReal)
    (W2 : Fin C → Fin C → EReal) (b2 : Fin C → EReal) (W3 : Fin C → Fin C → EReal) (b3 : Fin C → EReal) :
    netDenseA (adj src dst) x W1 b1 W2 b2 W3 b3 = netDense src dst x W1 b1 W2 b2 W3 b3 := rfl

end Gcn

end
-- ==== Proof.PreRange.lean ====
import proofs.«404086_j7035156431295_1_alg».proof.Pre_finite_inputs
import proofs.«404086_j7035156431295_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.Pre_finite_inputs.Range

open Cert.Pre_finite_inputs
open Idealize.ShloMosaic Idealize.ShloMosaic.ValueIdx

/-- The rank-0 shape has one index. -/
instance subsingleton_scalar_idx : Subsingleton S_.Idx := ⟨fun a b => funext fun d => d.elim0⟩

/-- A 32-bit word that compares signed-at-least 0 and signed-below 10000 has its signed value in [0, 10000). -/
theorem word_range (w : BitVec 32) (h0 : IntOp.cmpi .sge w (0#32) = 1#1) (h1 : IntOp.cmpi .slt w (10000#32) = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (10000#32 : BitVec 32).toInt = 10000 := by decide
  rw [e0] at h0
  rw [e1] at h1
  exact ⟨h0, h1⟩

/-- THE PRECONDITION GIVES THE INDEX RANGE: where the precondition evaluates to true, every entry of the edge list is
    a node number. -/
theorem inRange_of_pre [Cert.Pre_finite_inputs.Facts] (a0 : FVec Ideal S1 .f32) (a1 : FVec Ideal S10000x128 .f32) (a2 : IVec S2x640000 32) (a3 : FVec Ideal S128x128 .f32)
    (a4 : FVec Ideal S128 .f32) (a5 : FVec Ideal S128x128 .f32) (a6 : FVec Ideal S128 .f32) (a7 : FVec Ideal S128x128 .f32) (a8 : FVec Ideal S128 .f32)
    (h : fn (F := Ideal) a0 a1 a2 a3 a4 a5 a6 a7 a8 = (fun _ => 1#1)) : Gcn.InRange a2 := by
  -- the precondition's one word is 1
  have e := congrFun h ValueIdx.ix0
  dsimp only [fn, fn_part1, fn_part2] at e
  -- it is a conjunction whose last conjunct is the all-reduction over the edge list
  have e2 := (IntOp.andi_eq_one.1 e).2
  intro i
  -- so the conjunction of the two compares is 1 at every entry
  have e3 := Host.reduce_andi_all _ _ _ _ _ e2 i
  obtain ⟨h0, h1⟩ := IntOp.andi_eq_one.1 e3
  exact word_range (a2 i) h0 h1

end Cert.Pre_finite_inputs.Range

end
-- ==== Proof.KArr.lean ====
import proofs.«404086_j7035156431295_1_alg».proof.Proof.Gen.KernelIdeal.Frame
import proofs.«404086_j7035156431295_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! Each array a region reads or writes, named at its literal type (a function from the array's indices to the
    extended reals), at the contents `V` the region is entered with. -/

-- the TensorCore's buffer contents when a region is entered
variable (V : (c : Dev nD) → (b : Ref sig .tc) → Buf (Elt Ideal) ((c : Thread nD τ).loc b))

/-- The node features `x`. -/
abbrev aX (c : Dev nD) : S10000x128.Idx → EReal := V c main_arg1
/-- The three weight matrices. -/
abbrev aW1 (c : Dev nD) : S128x128.Idx → EReal := V c main_arg3
abbrev aW2 (c : Dev nD) : S128x128.Idx → EReal := V c main_arg5
abbrev aW3 (c : Dev nD) : S128x128.Idx → EReal := V c main_arg7
/-- The three biases before their reshape to one row. -/
abbrev aB1 (c : Dev nD) : S128.Idx → EReal := V c main_arg4
abbrev aB2 (c : Dev nD) : S128.Idx → EReal := V c main_arg6
abbrev aB3 (c : Dev nD) : S128.Idx → EReal := V c main_arg8
/-- The dense adjacency matrix the host builds. -/
abbrev aAdj (c : Dev nD) : S10000x10000.Idx → EReal := V c main_v57
/-- The regions' result arrays: features times weights (58, 61, 64), a layer's output (60, 63, 66). -/
abbrev a58 (c : Dev nD) : S10000x128.Idx → EReal := V c main_v58
abbrev a60 (c : Dev nD) : S10000x128.Idx → EReal := V c main_v60
abbrev a61 (c : Dev nD) : S10000x128.Idx → EReal := V c main_v61
abbrev a63 (c : Dev nD) : S10000x128.Idx → EReal := V c main_v63
abbrev a64 (c : Dev nD) : S10000x128.Idx → EReal := V c main_v64
abbrev a66 (c : Dev nD) : S10000x128.Idx → EReal := V c main_v66
/-- The biases as one-row matrices. -/
abbrev a59 (c : Dev nD) : S1x128.Idx → EReal := V c main_v59
abbrev a62 (c : Dev nD) : S1x128.Idx → EReal := V c main_v62
abbrev a65 (c : Dev nD) : S1x128.Idx → EReal := V c main_v65

/-- Each region's output array after the region has run from `V`. -/
abbrev o0 (c : Dev nD) : S10000x128.Idx → EReal := (dat0 (F := Ideal) V c).arrAt 2 cfg0.N
abbrev o1 (c : Dev nD) : S10000x128.Idx → EReal := (dat1 (F := Ideal) V c).arrAt 3 cfg1.N
abbrev o2 (c : Dev nD) : S10000x128.Idx → EReal := (dat2 (F := Ideal) V c).arrAt 2 cfg2.N
abbrev o3 (c : Dev nD) : S10000x128.Idx → EReal := (dat3 (F := Ideal) V c).arrAt 3 cfg3.N
abbrev o4 (c : Dev nD) : S10000x128.Idx → EReal := (dat4 (F := Ideal) V c).arrAt 2 cfg4.N
abbrev o5 (c : Dev nD) : S10000x128.Idx → EReal := (dat5 (F := Ideal) V c).arrAt 3 cfg5.N

end Cert.KernelIdeal.Arr

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.LibIndex.lean ====
/-
  General lemmas for ELEMENT indexing by integer lists, as `x[idx]` and `zeros.at[idx].add(u)` lower for a
  rank-1 array and a list of positions (held as an `[E, 1]` column), and as `zeros.at[r, c].add(u)` lowers
  for a rank-2 array and a list of (row, column) pairs (held as an `[E, 2]` array):

  * an element gather — operand `[N]`, start indices `[E, 1]`, result `[E]` — read at `e` is the operand at
    position `idx[e, 0]` (read signed, clamped into `[0, N − 1]`);
  * at the ideal values an element scatter-add — operand `[N]`, scatter indices `[E, 1]`, updates `[E]` —
    read at `n` is the operand's entry plus the sum of the updates `e` whose position `idx[e, 0]` (read
    signed, not clamped) is `n`;
  * at the ideal values a point scatter-add — operand `[N, M]`, scatter indices `[E, 2]`, updates `[E]` —
    read at `(n, k)` is the operand's entry plus the sum of the updates `e` whose pair
    `(idx[e, 0], idx[e, 1])` (read signed, not clamped) is `(n, k)`;
  * a scatter-add of nonnegative updates into a nonnegative operand is nonnegative.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-! ## Sums over a rank-1 index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The element gather -/

/-- The dimension numbers of an element gather: operand `[N]`, start indices `[E, 1]`, result `[E]`. -/
abbrev vecGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at position `idx[e, 0]`, read signed and clamped into
    `[0, N − 1]`. -/
theorem vecGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The element scatter-add -/

/-- The dimension numbers of an element scatter: operand `[N]`, scatter indices `[E, 1]`, updates `[E]`. -/
abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where the update at `e` lands: at `n` exactly when the position at `e`, read signed, is `n`. -/
private theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecScatterDims N E wf).sKept = [] := rfl
  have hw0 : (vecScatterDims N E wf).window (ix1 e) (0 : Fin 1) = 0 := by
    unfold ScatterDims.window
    rw [dif_neg (show (0 : Fin 1) ∉ (vecScatterDims N E wf).sKept by rw [hk]; exact List.not_mem_nil)]
  constructor
  · intro h
    unfold ScatterDims.resultIdx? at h
    split at h
    · rename_i hb
      have h' := Option.some.inj h
      have h0 : ((vecScatterDims N E wf).start (ix1 e) idx (0 : Fin 1) + ((vecScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hrow
    unfold ScatterDims.resultIdx?
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ) < ((⟨1, ![N]⟩ : Shape).size a : ℤ) := by
      intro a
      obtain rfl : a = 0 := Subsingleton.elim _ _
      show 0 ≤ (vecScatterDims N E wf).start (ix1 e) idx (0 : Fin 1) + ((vecScatterDims N E wf).window (ix1 e) (0 : Fin 1) : ℤ)
        ∧ (vecScatterDims N E wf).start (ix1 e) idx (0 : Fin 1) + ((vecScatterDims N E wf).window (ix1 e) (0 : Fin 1) : ℤ) < (N : ℤ)
      rw [hs0, hw0, hrow]
      have := n.isLt
      omega
    rw [dif_pos hb]
    congr 1
    funext a
    obtain rfl : a = 0 := Subsingleton.elim _ _
    refine Fin.ext ?_
    show ((vecScatterDims N E wf).start (ix1 e) idx (0 : Fin 1) + ((vecScatterDims N E wf).window (ix1 e) (0 : Fin 1) : ℤ)).toNat = n.val
    rw [hs0, hw0, hrow]
    omega

/-- THE ELEMENT SCATTER-ADD READ AT `n`, at the ideal values: the operand's entry plus the sum of the updates `e`
    whose position `idx[e, 0]`, read signed and not clamped, is `n`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, sum_idx1, Finset.sum_filter]
  refine Finset.sum_congr rfl fun e _ => ?_
  simp only [vecScatter_resultIdx]

/-! ## The point scatter-add -/

/-- The dimension numbers of a point scatter: operand `[N, M]`, scatter indices `[E, 2]` (a row number and a column
    number per update), updates `[E]`. -/
abbrev pointScatterDims (N M E : ℕ)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Where the update at `e` lands: at `(n, k)` exactly when the row number at `e` is `n` and the column number at `e`
    is `k`, both read signed. -/
private theorem pointScatter_resultIdx {N M E w : ℕ}
    (wf : ScatterDims.WF ⟨2, ![N, M]⟩ ⟨2, ![E, 2]⟩ ⟨1, ![E]⟩ [] [0, 1] [0, 1] 1)
    (idx : IVec ⟨2, ![E, 2]⟩ w) (e : Fin E) (n : Fin N) (k : Fin M) :
    (pointScatterDims N M E wf).resultIdx? (ix1 e) idx = some (ix2 n k)
      ↔ (idx (ix2 e (0 : Fin 2))).toInt = (n.val : ℤ) ∧ (idx (ix2 e (1 : Fin 2))).toInt = (k.val : ℤ) := by
  have hm0 : (0 : Fin 2) ∈ (pointScatterDims N M E wf).scatterDimsToOperandDims := List.mem_cons_self
  have hm1 : (1 : Fin 2) ∈ (pointScatterDims N M E wf).scatterDimsToOperandDims :=
    List.mem_cons_of_mem _ (List.mem_singleton.mpr rfl)
  have hs0 : (pointScatterDims N M E wf).start (ix1 e) idx (0 : Fin 2) = (idx (ix2 e (0 : Fin 2))).toInt := by
    unfold ScatterDims.start
    rw [dif_pos hm0]
    have hsi : (pointScatterDims N M E wf).siIdx (ix1 e) ⟨List.idxOf (0 : Fin 2) (pointScatterDims N M E wf).scatterDimsToOperandDims,
        List.idxOf_lt_length_iff.2 hm0⟩ = ix2 e (0 : Fin 2) := by
      funext b; refine Fin.ext ?_
      match b with
      | ⟨0, _⟩ => rfl
      | ⟨1, _⟩ => rfl
    rw [hsi]
  have hs1 : (pointScatterDims N M E wf).start (ix1 e) idx (1 : Fin 2) = (idx (ix2 e (1 : Fin 2))).toInt := by
    unfold ScatterDims.start
    rw [dif_pos hm1]
    have hsi : (pointScatterDims N M E wf).siIdx (ix1 e) ⟨List.idxOf (1 : Fin 2) (pointScatterDims N M E wf).scatterDimsToOperandDims,
        List.idxOf_lt_length_iff.2 hm1⟩ = ix2 e (1 : Fin 2) := by
      funext b; refine Fin.ext ?_
      match b with
      | ⟨0, _⟩ => rfl
      | ⟨1, _⟩ => rfl
    rw [hsi]
  have hk : (pointScatterDims N M E wf).sKept = [] := rfl
  have hw : ∀ a : Fin 2, (pointScatterDims N M E wf).window (ix1 e) a = 0 := by
    intro a
    unfold ScatterDims.window
    rw [dif_neg (show a ∉ (pointScatterDims N M E wf).sKept by rw [hk]; exact List.not_mem_nil)]
  constructor
  · intro h
    unfold ScatterDims.resultIdx? at h
    split at h
    · rename_i hb
      have h' := Option.some.inj h
      have h0 : ((pointScatterDims N M E wf).start (ix1 e) idx (0 : Fin 2) + ((pointScatterDims N M E wf).window (ix1 e) (0 : Fin 2) : ℤ)).toNat = n.val :=
        congrArg (fun f : (⟨2, ![N, M]⟩ : Shape).Idx => (f 0).val) h'
      have h1 : ((pointScatterDims N M E wf).start (ix1 e) idx (1 : Fin 2) + ((pointScatterDims N M E wf).window (ix1 e) (1 : Fin 2) : ℤ)).toNat = k.val :=
        congrArg (fun f : (⟨2, ![N, M]⟩ : Shape).Idx => (f 1).val) h'
      have hb0 := (hb 0).1
      have hb1 := (hb 1).1
      rw [hs0, hw 0] at h0 hb0
      rw [hs1, hw 1] at h1 hb1
      exact ⟨by omega, by omega⟩
    · exact absurd h (by simp)
  · rintro ⟨hrow, hcol⟩
    unfold ScatterDims.resultIdx?
    have hb : ∀ a : Fin 2, 0 ≤ (pointScatterDims N M E wf).start (ix1 e) idx a + ((pointScatterDims N M E wf).window (ix1 e) a : ℤ)
        ∧ (pointScatterDims N M E wf).start (ix1 e) idx a + ((pointScatterDims N M E wf).window (ix1 e) a : ℤ) < ((⟨2, ![N, M]⟩ : Shape).size a : ℤ) := by
      intro a
      match a with
      | ⟨0, _⟩ =>
        show 0 ≤ (pointScatterDims N M E wf).start (ix1 e) idx (0 : Fin 2) + ((pointScatterDims N M E wf).window (ix1 e) (0 : Fin 2) : ℤ)
          ∧ (pointScatterDims N M E wf).start (ix1 e) idx (0 : Fin 2) + ((pointScatterDims N M E wf).window (ix1 e) (0 : Fin 2) : ℤ) < (N : ℤ)
        rw [hs0, hw 0, hrow]
        have := n.isLt
        omega
      | ⟨1, _⟩ =>
        show 0 ≤ (pointScatterDims N M E wf).start (ix1 e) idx (1 : Fin 2) + ((pointScatterDims N M E wf).window (ix1 e) (1 : Fin 2) : ℤ)
          ∧ (pointScatterDims N M E wf).start (ix1 e) idx (1 : Fin 2) + ((pointScatterDims N M E wf).window (ix1 e) (1 : Fin 2) : ℤ) < (M : ℤ)
        rw [hs1, hw 1, hcol]
        have := k.isLt
        omega
    rw [dif_pos hb]
    congr 1
    funext a
    refine Fin.ext ?_
    match a with
    | ⟨0, _⟩ =>
      show ((pointScatterDims N M E wf).start (ix1 e) idx (0 : Fin 2) + ((pointScatterDims N M E wf).window (ix1 e) (0 : Fin 2) : ℤ)).toNat = n.val
      rw [hs0, hw 0, hrow]
      omega
    | ⟨1, _⟩ =>
      show ((pointScatterDims N M E wf).start (ix1 e) idx (1 : Fin 2) + ((pointScatterDims N M E wf).window (ix1 e) (1 : Fin 2) : ℤ)).toNat = k.val
      rw [hs1, hw 1, hcol]
      omega

/-- THE POINT SCATTER-ADD READ AT `(n, k)`, at the ideal values: the operand's entry plus the sum of the updates `e`
    whose pair `(idx[e, 0], idx[e, 1])`, read signed and not clamped, is `(n, k)`. -/
theorem pointScatterAdd_apply {N M E w : ℕ}
    (wf : ScatterDims.WF ⟨2, ![N, M]⟩ ⟨2, ![E, 2]⟩ ⟨1, ![E]⟩ [] [0, 1] [0, 1] 1)
    (x : FVec Ideal ⟨2, ![N, M]⟩ .f32) (idx : IVec ⟨2, ![E, 2]⟩ w) (upd : FVec Ideal ⟨1, ![E]⟩ .f32)
    (n : Fin N) (k : Fin M) :
    Host.scatterAdd (F := Ideal) (pointScatterDims N M E wf) x idx upd (ix2 n k)
      = x (ix2 n k) + ∑ e ∈ Finset.univ.filter (fun e : Fin E =>
          (idx (ix2 e (0 : Fin 2))).toInt = (n.val : ℤ) ∧ (idx (ix2 e (1 : Fin 2))).toInt = (k.val : ℤ)),
          upd (ix1 e) := by
  show Ideal.hostScatterAdd (pointScatterDims N M E wf) x idx upd (ix2 n k) = _
  unfold Ideal.hostScatterAdd
  congr 1
  rw [Finset.sum_filter, sum_idx1, Finset.sum_filter]
  refine Finset.sum_congr rfl fun e _ => ?_
  simp only [pointScatter_resultIdx]

/-! ## Sign -/

/-- A scatter-add, at the ideal values, of nonnegative updates into a nonnegative operand is nonnegative at every
    index, whatever the dimension numbers and the scatter indices: each entry is the operand's entry plus a sum of
    update entries. -/
theorem scatterAdd_nonneg {s si u : Shape} {w : ℕ} {φ : FTy} (d : ScatterDims s si u)
    (x : FVec Ideal s φ) (idx : IVec si w) (upd : FVec Ideal u φ)
    (hx : ∀ i, 0 ≤ x i) (hu : ∀ j, 0 ≤ upd j) (i : s.Idx) :
    0 ≤ Host.scatterAdd (F := Ideal) d x idx upd i := by
  show 0 ≤ Ideal.hostScatterAdd d x idx upd i
  unfold Ideal.hostScatterAdd
  exact add_nonneg (hx i) (Finset.sum_nonneg fun j _ => hu j)

end Idealize.ShloMosaic.ValueIdx

end
-- ==== Proof.KAdj.lean ====
import proofs.«404086_j7035156431295_1_alg».proof.Proof.Gen.KernelIdeal.Frame
import proofs.«404086_j7035156431295_1_alg».proof.Proof.Spec
import proofs.«404086_j7035156431295_1_alg».proof.Proof.KArr
import proofs.«404086_j7035156431295_1_alg».proof.Proof.LibRows
import proofs.«404086_j7035156431295_1_alg».proof.Proof.LibIndex
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost
import Idealize.ShloMosaic.Lib.StableHlo.Predicate

set_option maxRecDepth 16384

noncomputable section

open scoped BigOperators

namespace Cert.KernelIdeal.AdjVal

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Arr

variable (m : (ℓ : Loc nD τ sig) → Buf (Elt Ideal) ℓ) (ρ : Dev nD → PrngReg)

/-- The edge list as launched. -/
abbrev eiOf (c : Dev nD) : IVec S2x640000 32 := m ((c : Thread nD τ).loc main_arg2)

/-! ## The host's terms, named

The host operations before the first region compute, from the edge list `ei` alone: the two rows of `ei` as vectors;
`deg ^ (-1/2)` by a scatter-add of ones at the targets; the edge weights by two gathers; the edge part of the matrix
by a point scatter-add at the (target, source) pairs; the diagonal by a second point scatter-add at the pairs `(i, i)`. -/

section Terms

/-- Row `0` of the edge list (the sources) as a vector over the edges. -/
def rowS (ei : IVec S2x640000 32) : IVec S640000 32 :=
  shapeCast S640000 (extractStridedSlice S1x640000 ![0, 0] ei slices_S2x640000_S1x640000_0_0) shapeCasts_S1x640000_S640000

/-- Row `1` of the edge list (the targets) as a vector over the edges. -/
def rowT (ei : IVec S2x640000 32) : IVec S640000 32 :=
  shapeCast S640000 (extractStridedSlice S1x640000 ![1, 0] ei slices_S2x640000_S1x640000_1_0) shapeCasts_S1x640000_S640000

/-- Node numbers with the negative ones wrapped around: `r < 0 ? r + 10000 : r`, per edge. -/
def wrapE (r : IVec S640000 32) : IVec S640000 32 :=
  select (cmpi .slt r (broadcastInDim S640000 ![] bcast_S_S640000 (constantI S_ 32 0#32)))
    (addi r (broadcastInDim S640000 ![] bcast_S_S640000 (constantI S_ 32 10000#32))) r

/-- The wrapped node numbers of the edges as a one-column matrix. -/
def colE (r : IVec S640000 32) : IVec S640000x1 32 :=
  broadcastInDim S640000x1 ![0] bcast_S640000_S640000x1_0 (wrapE r)

/-- The numbers `0 … 9999`, wrapped the same way, as a one-column matrix. -/
def colN : IVec S10000x1 32 :=
  broadcastInDim S10000x1 ![0] bcast_S10000_S10000x1_0
    (select (cmpi .slt (iotaInDim S10000 32 0) (broadcastInDim S10000 ![] bcast_S_S10000 (constantI S_ 32 0#32)))
      (addi (iotaInDim S10000 32 0) (broadcastInDim S10000 ![] bcast_S_S10000 (constantI S_ 32 10000#32)))
      (iotaInDim S10000 32 0))

/-- `deg ^ (-1/2)`: ones scatter-added at the raw targets into zeros, plus one, then the reciprocal square root. -/
def disV (t : IVec S640000 32) : FVec Ideal S10000 .f32 :=
  Host.rsqrt (addf
    (Host.scatterAdd scatter_S10000_S640000x1_S640000_n_0_0_1
      (broadcastInDim S10000 ![] bcast_S_S10000 (constant (F := Ideal) S_ .f32 0x00000000#32))
      (broadcastInDim S640000x1 ![0] bcast_S640000_S640000x1_0 t)
      (broadcastInDim S640000 ![] bcast_S_S640000 (constant (F := Ideal) S_ .f32 0x3F800000#32)))
    (broadcastInDim S10000 ![] bcast_S_S10000 (constant (F := Ideal) S_ .f32 0x3F800000#32)))

/-- The edge weights: `d` gathered at the sources times `d` gathered at the targets. -/
def nrmV (d : FVec Ideal S10000 .f32) (s t : IVec S640000 32) : FVec Ideal S640000 .f32 :=
  mulf (Host.gather gather_S10000_S640000x1_S640000_n_0_n_n_0_1_1 d (colE s))
    (Host.gather gather_S10000_S640000x1_S640000_n_0_n_n_0_1_1 d (colE t))

/-- Two one-column matrices side by side. -/
def pairsE (a b : IVec S640000x1 32) : IVec S640000x2 32 :=
  concatenate S640000x2 1 [⟨S640000x1, a⟩, ⟨S640000x1, b⟩] concatenates_S640000x1_S640000x1_S640000x2_d1
def pairsN (a b : IVec S10000x1 32) : IVec S10000x2 32 :=
  concatenate S10000x2 1 [⟨S10000x1, a⟩, ⟨S10000x1, b⟩] concatenates_S10000x1_S10000x1_S10000x2_d1

/-- The zero matrix the edges are added into. -/
def zeroM : FVec Ideal S10000x10000 .f32 :=
  broadcastInDim S10000x10000 ![] bcast_S_S10000x10000 (constant (F := Ideal) S_ .f32 0x00000000#32)

/-- The matrix the host leaves: the edge weights added at (target, source), the squares of `d` added on the
    diagonal, then the change of format. -/
def adjV (ei : IVec S2x640000 32) : FVec Ideal S10000x10000 .bf16 :=
  truncf .bf16
    (Host.scatterAdd scatter_S10000x10000_S10000x2_S10000_n_01_01_1
      (Host.scatterAdd scatter_S10000x10000_S640000x2_S640000_n_01_01_1 zeroM
        (pairsE (colE (rowT ei)) (colE (rowS ei))) (nrmV (disV (rowT ei)) (rowS ei) (rowT ei)))
      (pairsN colN colN) (mulf (disV (rowT ei)) (disV (rowT ei))))
    bitsLt_bf16_f32

end Terms

/-! ## The host operations before the first region, cut at the two concatenations -/

section Cut
variable {F : FTy → Type} [FloatOps F]

/-- Running a list of operations is running a prefix of it and then the rest. -/
theorem after_take_drop (n : ℕ) (l : List (HloOp τ sig (Elt F))) (G : Valuation τ sig (Elt F)) :
    StableHlo.after l G = StableHlo.after (l.drop n) (StableHlo.after (l.take n) G) := by
  rw [← StableHlo.after_append, List.take_append_drop]

/-- Up to the first concatenation; that concatenation and the edges' scatter-add; up to the second concatenation;
    that concatenation, the diagonal's scatter-add and the change of format. -/
abbrev opsP : List (HloOp τ sig (Elt F)) := (hostOps0 (F := F)).take 51
abbrev opsQ : List (HloOp τ sig (Elt F)) := ((hostOps0 (F := F)).drop 51).take 2
abbrev opsR : List (HloOp τ sig (Elt F)) := (((hostOps0 (F := F)).drop 51).drop 2).take 18
abbrev opsS : List (HloOp τ sig (Elt F)) := (((hostOps0 (F := F)).drop 51).drop 2).drop 18
end Cut

section Run
variable (G : Valuation τ sig (Elt Ideal))

set_option maxHeartbeats 4000000 in
theorem runP_v10 : (StableHlo.after (opsP (F := Ideal)) G (Proc.devRef .tc main_v10) : S10000.Idx → EReal)
    = disV (rowT (G (Proc.devRef .tc main_arg2))) := by
  dsimp only [opsP, hostOps0, List.take, List.drop]
  after_results_simp
  rfl

set_option maxHeartbeats 4000000 in
theorem runP_v25 : (StableHlo.after (opsP (F := Ideal)) G (Proc.devRef .tc main_v25) : S640000.Idx → EReal)
    = nrmV (disV (rowT (G (Proc.devRef .tc main_arg2)))) (rowS (G (Proc.devRef .tc main_arg2))) (rowT (G (Proc.devRef .tc main_arg2))) := by
  dsimp only [opsP, hostOps0, List.take, List.drop]
  after_results_simp
  rfl

set_option maxHeartbeats 4000000 in
theorem runP_v26 : (StableHlo.after (opsP (F := Ideal)) G (Proc.devRef .tc main_v26) : S10000x10000.Idx → EReal) = zeroM := by
  dsimp only [opsP, hostOps0, List.take, List.drop]
  after_results_simp
  rfl

set_option maxHeartbeats 4000000 in
theorem runP_v37 : (StableHlo.after (opsP (F := Ideal)) G (Proc.devRef .tc main_v37) : S640000x1.Idx → BitVec 32)
    = colE (rowT (G (Proc.devRef .tc main_arg2))) := by
  dsimp only [opsP, hostOps0, List.take, List.drop]
  after_results_simp
  rfl

set_option maxHeartbeats 4000000 in
theorem runP_v38 : (StableHlo.after (opsP (F := Ideal)) G (Proc.devRef .tc main_v38) : S640000x1.Idx → BitVec 32)
    = colE (rowS (G (Proc.devRef .tc main_arg2))) := by
  dsimp only [opsP, hostOps0, List.take, List.drop]
  after_results_simp
  rfl

set_option maxHeartbeats 4000000 in
theorem runQ_v40 : @Eq (FVec Ideal S10000x10000 .f32) (StableHlo.after (opsQ (F := Ideal)) G (Proc.devRef .tc main_v40))
    (Host.scatterAdd (F := Ideal) scatter_S10000x10000_S640000x2_S640000_n_01_01_1 (G (Proc.devRef .tc main_v26))
        (pairsE (G (Proc.devRef .tc main_v37)) (G (Proc.devRef .tc main_v38))) (G (Proc.devRef .tc main_v25))) := by
  dsimp only [opsQ, hostOps0, List.take, List.drop]
  after_results_simp
  rfl

set_option maxHeartbeats 4000000 in
theorem runQ_v10 : StableHlo.after (opsQ (F := Ideal)) G (Proc.devRef .tc main_v10) = G (Proc.devRef .tc main_v10) := by
  dsimp only [opsQ, hostOps0, List.take, List.drop]
  after_results_simp

set_option maxHeartbeats 4000000 in
theorem runR_v40 : StableHlo.after (opsR (F := Ideal)) G (Proc.devRef .tc main_v40) = G (Proc.devRef .tc main_v40) := by
  dsimp only [opsR, hostOps0, List.take, List.drop]
  after_results_simp

set_option maxHeartbeats 4000000 in
theorem runR_v42 : @Eq (FVec Ideal S10000 .f32) (StableHlo.after (opsR (F := Ideal)) G (Proc.devRef .tc main_v42))
    (mulf (F := Ideal) (G (Proc.devRef .tc main_v10)) (G (Proc.devRef .tc main_v10))) := by
  dsimp only [opsR, hostOps0, List.take, List.drop]
  after_results_simp

set_option maxHeartbeats 4000000 in
theorem runR_v53 : (StableHlo.after (opsR (F := Ideal)) G (Proc.devRef .tc main_v53) : S10000x1.Idx → BitVec 32) = colN := by
  dsimp only [opsR, hostOps0, List.take, List.drop]
  after_results_simp
  rfl

set_option maxHeartbeats 4000000 in
theorem runR_v54 : (StableHlo.after (opsR (F := Ideal)) G (Proc.devRef .tc main_v54) : S10000x1.Idx → BitVec 32) = colN := by
  dsimp only [opsR, hostOps0, List.take, List.drop]
  after_results_simp
  rfl

set_option maxHeartbeats 4000000 in
theorem runS_v57 : @Eq (FVec Ideal S10000x10000 .bf16) (StableHlo.after (opsS (F := Ideal)) G (Proc.devRef .tc main_v57))
    (truncf (F := Ideal) .bf16 (Host.scatterAdd (F := Ideal) scatter_S10000x10000_S10000x2_S10000_n_01_01_1 (G (Proc.devRef .tc main_v40))
        (pairsN (G (Proc.devRef .tc main_v53)) (G (Proc.devRef .tc main_v54))) (G (Proc.devRef .tc main_v42)))
        bitsLt_bf16_f32) := by
  dsimp only [opsS, hostOps0, List.take, List.drop]
  after_results_simp
  rfl

end Run

/-- WHAT THE HOST LEAVES in the matrix's buffer: the term above over the launched edge list. -/
theorem adj_eq (c : Dev nD) : aAdj (V1 (F := Ideal) m ρ) c = adjV (eiOf m c) := by
  show StableHlo.after hostOps0 (W0 m ρ c) (Proc.devRef .tc main_v57) = _
  rw [after_take_drop 51 hostOps0, after_take_drop 2 (List.drop 51 hostOps0), after_take_drop 18 (List.drop 2 (List.drop 51 hostOps0))]
  rw [runS_v57, runR_v40, runR_v53, runR_v54, runR_v42, runQ_v40, runQ_v10, runP_v10, runP_v25, runP_v26, runP_v37, runP_v38]
  rfl

/-! ## Reading the terms at an index -/

section Points

/-- A vector as a one-column matrix reads, at `(p, 0)`, the vector at `p`. -/
theorem col_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) :=
  broadcastInDim_apply _ h v _ (ix1 p) (fun a => by
    obtain rfl : a = 0 := Subsingleton.elim _ _
    show p.val = if n = 1 then 0 else p.val
    split
    · have := p.isLt; omega
    · rfl)

/-- Two one-column matrices side by side read, in column `0`, the first … -/
theorem pair_left {α : Type} {E : ℕ} (h : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e (0 : Fin 2)) = a (ix2 e (0 : Fin 1)) :=
  concatenate_pair_apply_left (1 : Fin 2) a b h (ix2 e (0 : Fin 2)) rfl (ix2 e (0 : Fin 1)) (fun c => by
    match c with
    | ⟨0, _⟩ => rfl
    | ⟨1, _⟩ => rfl)

/-- … and, in column `1`, the second. -/
theorem pair_right {α : Type} {E : ℕ} (h : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e (1 : Fin 2)) = b (ix2 e (0 : Fin 1)) :=
  concatenate_pair_apply_right (1 : Fin 2) a b h (ix2 e (1 : Fin 2)) rfl rfl (ix2 e (0 : Fin 1))
    (fun c hc => by
      match c, hc with
      | ⟨0, _⟩, _ => rfl
      | ⟨1, _⟩, hc => exact absurd rfl hc)
    rfl

theorem rowS_apply (ei : IVec S2x640000 32) (e : Fin 640000) : rowS ei (ix1 e) = ei (ix2 (0 : Fin 2) e) :=
  (shapeCast_1a_a_apply _ _ e).trans (slice2_axis0_apply 0 ei _ (0 : Fin 1) e (0 : Fin 2) rfl)

theorem rowT_apply (ei : IVec S2x640000 32) (e : Fin 640000) : rowT ei (ix1 e) = ei (ix2 (1 : Fin 2) e) :=
  (shapeCast_1a_a_apply _ _ e).trans (slice2_axis0_apply 1 ei _ (0 : Fin 1) e (1 : Fin 2) rfl)

/-- A nonnegative word is not wrapped. -/
theorem wrap_scalar (a : BitVec 32) (h0 : 0 ≤ a.toInt) :
    Scalar.select (IntOp.cmpi .slt a 0#32) (IntOp.addi a 10000#32) a = a := by
  have h : a.slt 0#32 = false := by
    simp only [BitVec.slt, BitVec.toInt_zero, decide_eq_false_iff_not, not_lt]
    exact h0
  simp only [Scalar.select, IntOp.cmpi, h]
  rfl

theorem wrapE_apply (r : IVec S640000 32) (e : Fin 640000) (h0 : 0 ≤ (r (ix1 e)).toInt) : wrapE r (ix1 e) = r (ix1 e) := by
  unfold wrapE
  rw [select_apply]
  show Scalar.select (IntOp.cmpi .slt (r (ix1 e)) (broadcastInDim S640000 ![] bcast_S_S640000 (constantI S_ 32 0#32) (ix1 e)))
      (IntOp.addi (r (ix1 e)) (broadcastInDim S640000 ![] bcast_S_S640000 (constantI S_ 32 10000#32) (ix1 e))) (r (ix1 e)) = _
  rw [broadcastInDim_scalar_apply, broadcastInDim_scalar_apply, constantI_apply, constantI_apply]
  exact wrap_scalar _ h0

theorem colE_apply (r : IVec S640000 32) (e : Fin 640000) (h0 : 0 ≤ (r (ix1 e)).toInt) :
    colE r (ix2 e (0 : Fin 1)) = r (ix1 e) := by
  unfold colE
  rw [col_apply, wrapE_apply r e h0]

theorem colN_apply (i : Fin 10000) : colN (ix2 i (0 : Fin 1)) = BitVec.ofNat 32 i.val := by
  unfold colN
  rw [col_apply, select_apply]
  show Scalar.select (IntOp.cmpi .slt (BitVec.ofNat 32 i.val) (broadcastInDim S10000 ![] bcast_S_S10000 (constantI S_ 32 0#32) (ix1 i)))
      (IntOp.addi (BitVec.ofNat 32 i.val) (broadcastInDim S10000 ![] bcast_S_S10000 (constantI S_ 32 10000#32) (ix1 i))) (BitVec.ofNat 32 i.val) = _
  rw [broadcastInDim_scalar_apply, broadcastInDim_scalar_apply, constantI_apply, constantI_apply]
  refine wrap_scalar _ ?_
  rw [StableHlo.Predicate.toInt_ofNat_small _ (by have := i.isLt; omega)]
  exact Int.natCast_nonneg _

end Points

/-! ## The terms against the specification -/

section Spec

/-- `deg ^ (-1/2)` at node `n`, the targets still read as signed words. -/
theorem disV_apply (t : IVec S640000 32) (n : Fin 10000) :
    disV t (ix1 n) = Ideal.rsqrt ((0 + ∑ _e ∈ Finset.univ.filter (fun e : Fin 640000 => (t (ix1 e)).toInt = (n.val : ℤ)), Gcn.one)
      + Gcn.one) := by
  unfold disV
  have h1 : ∀ x : FVec Ideal S10000 .f32, Host.rsqrt x (ix1 n) = Ideal.rsqrt (x (ix1 n)) := fun _ => rfl
  have hd : scatter_S10000_S640000x1_S640000_n_0_0_1
      = vecScatterDims 10000 640000 scatter_S10000_S640000x1_S640000_n_0_0_1_wf := rfl
  rw [h1, addf_apply, hd, vecScatterAdd_apply, Gcn.one]
  refine congrArg Ideal.rsqrt (congrArg₂ (· + ·) (congrArg₂ (· + ·) ?_ ?_) ?_)
  · rw [broadcastInDim_scalar_apply, constant_apply, Ideal.ofBits_zero_f32]
  · exact Finset.sum_congr (Finset.filter_congr fun e _ => by rw [col_apply])
      (fun e _ => by rw [broadcastInDim_scalar_apply, constant_apply])
  · rw [broadcastInDim_scalar_apply, constant_apply]

variable {ei : IVec S2x640000 32} (hr : Gcn.InRange ei)

include hr in
/-- With the edge list in range a source word, read signed, is `n` exactly when the clamped source is. -/
theorem src_iff (e : Fin 640000) (n : Fin 10000) :
    (ei (ix2 (0 : Fin 2) e)).toInt = (n.val : ℤ) ↔ Gcn.srcOf ei e = n := by
  have h := hr (ix2 (0 : Fin 2) e)
  rw [Fin.ext_iff]
  show _ ↔ min (ei (ix2 (0 : Fin 2) e)).toInt.toNat 9999 = n.val
  omega

include hr in
theorem dst_iff (e : Fin 640000) (n : Fin 10000) :
    (ei (ix2 (1 : Fin 2) e)).toInt = (n.val : ℤ) ↔ Gcn.dstOf ei e = n := by
  have h := hr (ix2 (1 : Fin 2) e)
  rw [Fin.ext_iff]
  show _ ↔ min (ei (ix2 (1 : Fin 2) e)).toInt.toNat 9999 = n.val
  omega

include hr in
theorem dis_eq (n : Fin 10000) : disV (rowT ei) (ix1 n) = Gcn.dis (Gcn.dstOf ei) n := by
  rw [disV_apply, Gcn.dis, Gcn.deg]
  have hf : Finset.univ.filter (fun e : Fin 640000 => (rowT ei (ix1 e)).toInt = (n.val : ℤ))
      = Finset.univ.filter (fun e : Fin 640000 => Gcn.dstOf ei e = n) :=
    Finset.filter_congr fun e _ => by rw [rowT_apply]; exact dst_iff hr e n
  rw [hf]

include hr in
/-- The wrapped source column is the source row of the edge list. -/
theorem colS_eq (e : Fin 640000) : colE (rowS ei) (ix2 e (0 : Fin 1)) = ei (ix2 (0 : Fin 2) e) := by
  rw [colE_apply _ _ (by rw [rowS_apply]; exact (hr _).1), rowS_apply]

include hr in
theorem colT_eq (e : Fin 640000) : colE (rowT ei) (ix2 e (0 : Fin 1)) = ei (ix2 (1 : Fin 2) e) := by
  rw [colE_apply _ _ (by rw [rowT_apply]; exact (hr _).1), rowT_apply]

include hr in
/-- The weight of edge `e`. -/
theorem nrm_eq (e : Fin 640000) :
    nrmV (disV (rowT ei)) (rowS ei) (rowT ei) (ix1 e) = Gcn.nrm (Gcn.srcOf ei) (Gcn.dstOf ei) e := by
  unfold nrmV
  rw [mulf_apply]
  have hs : (⟨min (colE (rowS ei) (ix2 e (0 : Fin 1))).toInt.toNat (10000 - 1), by omega⟩ : Fin 10000) = Gcn.srcOf ei e :=
    Fin.ext (by show min _ _ = min _ _; rw [colS_eq hr])
  have ht : (⟨min (colE (rowT ei) (ix2 e (0 : Fin 1))).toInt.toNat (10000 - 1), by omega⟩ : Fin 10000) = Gcn.dstOf ei e :=
    Fin.ext (by show min _ _ = min _ _; rw [colT_eq hr])
  have g1 := vecGather_apply (N := 10000) (E := 640000) (by omega) gather_S10000_S640000x1_S640000_n_0_n_n_0_1_1_wf
    (disV (rowT ei)) (colE (rowS ei)) e
  have g2 := vecGather_apply (N := 10000) (E := 640000) (by omega) gather_S10000_S640000x1_S640000_n_0_n_n_0_1_1_wf
    (disV (rowT ei)) (colE (rowT ei)) e
  rw [hs] at g1
  rw [ht] at g2
  unfold Gcn.nrm
  exact congrArg₂ (· * ·) (g1.trans (dis_eq hr _)) (g2.trans (dis_eq hr _))

end Spec

section Entry

variable {ei : IVec S2x640000 32} (hr : Gcn.InRange ei)

include hr in
/-- THE MATRIX ENTRY: the edges into `n` from `j` contribute their weights, the diagonal contributes `d n * d n`. -/
theorem adjV_apply (n j : Fin 10000) : adjV ei (ix2 n j) = Gcn.adj (Gcn.srcOf ei) (Gcn.dstOf ei) n j := by
  unfold adjV
  have hd2 : scatter_S10000x10000_S10000x2_S10000_n_01_01_1
      = pointScatterDims 10000 10000 10000 scatter_S10000x10000_S10000x2_S10000_n_01_01_1_wf := rfl
  have hd1 : scatter_S10000x10000_S640000x2_S640000_n_01_01_1
      = pointScatterDims 10000 10000 640000 scatter_S10000x10000_S640000x2_S640000_n_01_01_1_wf := rfl
  rw [truncf_apply, hd2, pointScatterAdd_apply, hd1, pointScatterAdd_apply]
  unfold Gcn.adj
  refine congrArg₂ (· + ·) (congrArg₂ (· + ·) ?_ ?_) ?_
  · unfold zeroM
    rw [broadcastInDim_scalar_apply, constant_apply, Ideal.ofBits_zero_f32]
  · refine Finset.sum_congr (Finset.filter_congr fun e _ => ?_) (fun e _ => nrm_eq hr e)
    unfold pairsE
    rw [pair_left, pair_right, colT_eq hr, colS_eq hr, dst_iff hr, src_iff hr]
  · refine Finset.sum_congr (Finset.filter_congr fun i _ => ?_) (fun i _ => ?_)
    · unfold pairsN
      rw [pair_left, pair_right, colN_apply,
        StableHlo.Predicate.toInt_ofNat_small _ (by have := i.isLt; omega), Fin.ext_iff, Fin.ext_iff]
      omega
    · rw [mulf_apply, dis_eq hr]

end Entry

/-- THE ADJACENCY MATRIX THE HOST BUILDS, read at `(n, j)`: with the edge list in range, what the host operations before
    the first region leave in the matrix's buffer is the normalized adjacency with self-loops. -/
theorem adj_apply (c : Dev nD) (hr : Gcn.InRange (eiOf m c)) (n j : Fin 10000) :
    aAdj (V1 (F := Ideal) m ρ) c (ix2 n j) = Gcn.adj (Gcn.srcOf (eiOf m c)) (Gcn.dstOf (eiOf m c)) n j :=
  (congrFun (adj_eq m ρ c) (ix2 n j)).trans (adjV_apply hr n j)

end Cert.KernelIdeal.AdjVal
end
-- ==== Proof.KRegLin.lean ====
import proofs.«404086_j7035156431295_1_alg».proof.Proof.Gen.KernelIdeal.Frame
import proofs.«404086_j7035156431295_1_alg».proof.Proof.Spec
import proofs.«404086_j7035156431295_1_alg».proof.Proof.KArr
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegLin

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Arr

/-! ## The contraction of a [10000,128] by [128,128] product, axis by axis -/

theorem lhs_dot_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_dot_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dot_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dot_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A matrix product into a zero accumulator, read at an entry: the sum over the contracted axis. -/
theorem matmul_zero_apply {φ₁ φ₂ : FTy} (x : FVec Ideal S10000x128 φ₁) (w : FVec Ideal S128x128 φ₂) (n : Fin 10000) (k : Fin 128) :
    matmul dot_S10000x128_S128x128_S10000x128_1_0_0_1_n_n none x w (constant (F := Ideal) S10000x128 .f32 0x00000000#32) (ix2 n k)
      = ∑ j : Fin 128, x (ix2 n j) * w (ix2 j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ix2 n k) ((ValueIdx.contrEquiv1 dot_S10000x128_S128x128_S10000x128_1_0_0_1_n_n 128 rfl rfl).symm j) = ix2 n j := funext fun a => Fin.ext (by
    match a with
    | ⟨0, _⟩ => exact lhs_dot_0 _ _
    | ⟨1, _⟩ => exact (lhs_dot_1 _ _).trans hj)
  have er : dot_S10000x128_S128x128_S10000x128_1_0_0_1_n_n.rhsIdx (ix2 n k) ((ValueIdx.contrEquiv1 dot_S10000x128_S128x128_S10000x128_1_0_0_1_n_n 128 rfl rfl).symm j) = ix2 j k := funext fun a => Fin.ext (by
    match a with
    | ⟨0, _⟩ => exact (rhs_dot_0 _ _).trans hj
    | ⟨1, _⟩ => exact rhs_dot_1 _ _)
  rw [el, er]

/-! ## Features times a weight matrix, as one function of the two arrays -/

/-- The product of a [10000,128] array and a [128,128] array, entry by entry. -/
def prod (X : S10000x128.Idx → EReal) (W : S128x128.Idx → EReal) : S10000x128.Idx → EReal :=
  fun i => ∑ j : Fin 128, X (ix2 ⟨(i 0).val, idx2_lt0 i⟩ j) * W (ix2 j ⟨(i 1).val, idx2_lt1 i⟩)

theorem prod_apply (X : S10000x128.Idx → EReal) (W : S128x128.Idx → EReal) (n : Fin 10000) (k : Fin 128) :
    prod X W (ix2 n k) = ∑ j : Fin 128, X (ix2 n j) * W (ix2 j k) := rfl

theorem hz : (![0, 0] : Fin 2 → Nat) = fun _ => 0 := funext fun a => by fin_cases a <;> rfl

-- the TensorCore's buffer contents when a region is entered
variable (V : (c : Dev nD) → (b : Ref sig .tc) → Buf (Elt Ideal) ((c : Thread nD τ).loc b))

/-! ## Region 0: the node features times the first weight matrix -/

/-- Region 0's payload read at an entry: the format changes are the identity at the extended reals. -/
theorem pay0_apply (x0 : Vec Ideal S10000x128 .f32) (x1 : Vec Ideal S128x128 .f32) (n : Fin 10000) (k : Fin 128) :
    k0_pay1 x0 x1 (ix2 n k) = ∑ j : Fin 128, x0 (ix2 n j) * x1 (ix2 j k) := by
  unfold k0_pay1
  exact matmul_zero_apply (φ₁ := .bf16) (φ₂ := .bf16) x0 x1 n k

/-- The payload of two blocks that hold, row by row and column by column, what two arrays hold at an entry's row and
    column, is the arrays' product at that entry. -/
theorem pay0_at (x0 : Vec Ideal S10000x128 .f32) (x1 : Vec Ideal S128x128 .f32)
    (X : S10000x128.Idx → EReal) (W : S128x128.Idx → EReal) (y i : S10000x128.Idx)
    (h0 : ∀ j : Fin 128, x0 (ix2 ⟨(y 0).val, idx2_lt0 y⟩ j) = X (ix2 ⟨(i 0).val, idx2_lt0 i⟩ j))
    (h1 : ∀ j : Fin 128, x1 (ix2 j ⟨(y 1).val, idx2_lt1 y⟩) = W (ix2 j ⟨(i 1).val, idx2_lt1 i⟩)) :
    k0_pay1 x0 x1 y = prod X W i := by
  obtain ⟨p, q, rfl⟩ : ∃ (p : Fin 10000) (q : Fin 128), y = ix2 p q := ⟨y 0, y 1, eq_ix2 y⟩
  rw [pay0_apply]
  unfold prod
  exact Finset.sum_congr rfl fun j _ => congrArg₂ (· * ·) (h0 j) (h1 j)

/-- Region 0's index maps, decided over its one-point grid: every window's block is the block at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What a point of region 0 writes back: its block of the product of the two arrays the region reads. -/
theorem flushed0_eq (c : Dev nD) (t : Fin cfg0.N) :
    (dat0 (F := Ideal) V c).flushed 2 t = ((cfg0.win 2).blk t).view.read (Elt Ideal) (prod (aX V c) (aW1 V c)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext y
  show k0_pay1 (iblk0 V c 0 t) (iblk0 V c 1 t) y = prod (aX V c) (aW1 V c) (((cfg0.win 2).blk t).view.emb y)
  refine pay0_at _ _ _ _ y _ ?_ ?_
  · intro j
    show V c main_arg1 (((cfg0.win 0).blk t).view.emb (ix2 ⟨(y 0).val, _⟩ j)) = V c main_arg1 (ix2 ⟨((((cfg0.win 2).blk t).view.emb y) 0).val, _⟩ j)
    refine congrArg (V c main_arg1) (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * j.val = j.val; omega
  · intro j
    show V c main_arg3 (((cfg0.win 1).blk t).view.emb (ix2 j ⟨(y 1).val, _⟩)) = V c main_arg3 (ix2 j ⟨((((cfg0.win 2).blk t).view.emb y) 1).val, _⟩)
    refine congrArg (V c main_arg3) (funext fun a => Fin.ext ?_)
    match a with
    | ⟨0, _⟩ => show win0_1.index t (0 : Fin 2) * 128 + 1 * j.val = j.val; omega
    | ⟨1, _⟩ => show win0_1.index t (1 : Fin 2) * 128 + 1 * (y 1).val = win0_2.index t (1 : Fin 2) * 128 + 1 * (y 1).val; omega

/-- An entry of the array is in a point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v58).slice (win0_2.rect t)).set ↔ _
  rw [View.set_slice_whole, Rect.mem_set_unit]
  exact Iff.rfl

/-- The one block of region 0's output is the whole array. -/
theorem cover0 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 t0_0, ?_⟩
  rw [mem_blk0]
  obtain ⟨e0, e1, e2, e3, e4, e5⟩ := idx_facts0 t0_0
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- Region 0's output array after the region: the product of the features and the first weight matrix. -/
theorem final0 (c : Dev nD) : o0 V c = prod (aX V c) (aW1 V c) :=
  (dat0 (F := Ideal) V c).arrAt_eq_of_cover 2 (prod (aX V c) (aW1 V c)) (fun t _ => flushed0_eq V c t) cover0

/-- Region 0 (features times the first weight matrix): the output array after the region, read at `(n, k)`. -/
theorem final0_apply (c : Dev nD) (n : Fin 10000) (k : Fin 128) :
    o0 V c (ix2 n k) = ∑ j : Fin 128, aX V c (ix2 n j) * aW1 V c (ix2 j k) := by
  rw [final0]
  rfl

/-! ## Region 2: the first layer's output times the second weight matrix -/

/-- Region 2's payload read at an entry: the reshape to the same shape and the format changes are the identity. -/
theorem pay2_apply (x0 : Vec Ideal S10000x128 .bf16) (x1 : Vec Ideal S128x128 .f32) (n : Fin 10000) (k : Fin 128) :
    k2_pay1 x0 x1 (ix2 n k) = ∑ j : Fin 128, x0 (ix2 n j) * x1 (ix2 j k) := by
  unfold k2_pay1
  simp only [shapeCast_self]
  exact matmul_zero_apply (φ₁ := .bf16) (φ₂ := .bf16) x0 x1 n k

/-- The payload of two blocks that hold, row by row and column by column, what two arrays hold at an entry's row and
    column, is the arrays' product at that entry. -/
theorem pay2_at (x0 : Vec Ideal S10000x128 .bf16) (x1 : Vec Ideal S128x128 .f32)
    (X : S10000x128.Idx → EReal) (W : S128x128.Idx → EReal) (y i : S10000x128.Idx)
    (h0 : ∀ j : Fin 128, x0 (ix2 ⟨(y 0).val, idx2_lt0 y⟩ j) = X (ix2 ⟨(i 0).val, idx2_lt0 i⟩ j))
    (h1 : ∀ j : Fin 128, x1 (ix2 j ⟨(y 1).val, idx2_lt1 y⟩) = W (ix2 j ⟨(i 1).val, idx2_lt1 i⟩)) :
    k2_pay1 x0 x1 y = prod X W i := by
  obtain ⟨p, q, rfl⟩ : ∃ (p : Fin 10000) (q : Fin 128), y = ix2 p q := ⟨y 0, y 1, eq_ix2 y⟩
  rw [pay2_apply]
  unfold prod
  exact Finset.sum_congr rfl fun j _ => congrArg₂ (· * ·) (h0 j) (h1 j)

/-- Region 2's index maps, decided over its one-point grid: every window's block is the block at the origin. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What a point of region 2 writes back: its block of the product of the two arrays the region reads. -/
theorem flushed2_eq (c : Dev nD) (t : Fin cfg2.N) :
    (dat2 (F := Ideal) V c).flushed 2 t = ((cfg2.win 2).blk t).view.read (Elt Ideal) (prod (a60 V c) (aW2 V c)) := by
  show (cfg2.win 2).cut (grid2.coords t) ((dat2 (F := Ideal) V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts2 t
  funext y
  show k2_pay1 (iblk2 V c 0 t) (iblk2 V c 1 t) y = prod (a60 V c) (aW2 V c) (((cfg2.win 2).blk t).view.emb y)
  refine pay2_at _ _ _ _ y _ ?_ ?_
  · intro j
    show V c main_v60 (((cfg2.win 0).blk t).view.emb (ix2 ⟨(y 0).val, _⟩ j)) = V c main_v60 (ix2 ⟨((((cfg2.win 2).blk t).view.emb y) 0).val, _⟩ j)
    refine congrArg (V c main_v60) (funext fun a => Fin.ext ?_)
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 128 + 1 * j.val = j.val; omega
  · intro j
    show V c main_arg5 (((cfg2.win 1).blk t).view.emb (ix2 j ⟨(y 1).val, _⟩)) = V c main_arg5 (ix2 j ⟨((((cfg2.win 2).blk t).view.emb y) 1).val, _⟩)
    refine congrArg (V c main_arg5) (funext fun a => Fin.ext ?_)
    match a with
    | ⟨0, _⟩ => show win2_1.index t (0 : Fin 2) * 128 + 1 * j.val = j.val; omega
    | ⟨1, _⟩ => show win2_1.index t (1 : Fin 2) * 128 + 1 * (y 1).val = win2_2.index t (1 : Fin 2) * 128 + 1 * (y 1).val; omega

/-- An entry of the array is in a point's block iff each coordinate is in the block's range on its axis. -/
theorem mem_blk2 (t : Fin cfg2.N) (i : S10000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v61).slice (win2_2.rect t)).set ↔ _
  rw [View.set_slice_whole, Rect.mem_set_unit]
  exact Iff.rfl

/-- The one block of region 2's output is the whole array. -/
theorem cover2 (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  refine ⟨t2_0, flush2_2 t2_0, ?_⟩
  rw [mem_blk2]
  obtain ⟨e0, e1, e2, e3, e4, e5⟩ := idx_facts2 t2_0
  intro a
  match a with
  | ⟨0, _⟩ => show win2_2.index t2_0 (0 : Fin 2) * 10000 ≤ (i 0).val ∧ (i 0).val < win2_2.index t2_0 (0 : Fin 2) * 10000 + 10000; omega
  | ⟨1, _⟩ => show win2_2.index t2_0 (1 : Fin 2) * 128 ≤ (i 1).val ∧ (i 1).val < win2_2.index t2_0 (1 : Fin 2) * 128 + 128; omega

/-- Region 2's output array after the region: the product of the first layer's output and the second weight matrix. -/
theorem final2 (c : Dev nD) : o2 V c = prod (a60 V c) (aW2 V c) :=
  (dat2 (F := Ideal) V c).arrAt_eq_of_cover 2 (prod (a60 V c) (aW2 V c)) (fun t _ => flushed2_eq V c t) cover2

/-- Region 2 (hidden features times the second weight matrix). -/
theorem final2_apply (c : Dev nD) (n : Fin 10000) (k : Fin 128) :
    o2 V c (ix2 n k) = ∑ j : Fin 128, a60 V c (ix2 n j) * aW2 V c (ix2 j k) := by
  rw [final2]
  rfl

/-! ## Region 4: the second layer's output times the third weight matrix -/

/-- Region 4's payload read at an entry: the reshape to the same shape and the format changes are the identity. -/
theorem pay4_apply (x0 : Vec Ideal S10000x128 .bf16) (x1 : Vec Ideal S128x128 .f32) (n : Fin 10000) (k : Fin 128) :
    k4_pay1 x0 x1 (ix2 n k) = ∑ j : Fin 128, x0 (ix2 n j) * x1 (ix2 j k) := by
  unfold k4_pay1
  simp only [shapeCast_self]
  exact matmul_zero_apply (φ₁ := .bf16) (φ₂ := .bf16) x0 x1 n k

/-- The payload of two blocks that hold, row by row and column by column, what two arrays hold at an entry's row and
    column, is the arrays' product at that entry. -/
theorem pay4_at (x0 : Vec Ideal S10000x128 .bf16) (x1 : Vec Ideal S128x128 .f32)
    (X : S10000x128.Idx → EReal) (W : S128x128.Idx → EReal) (y i : S10000x128.Idx)
    (h0 : ∀ j : Fin 128, x0 (ix2 ⟨(y 0).val, idx2_lt0 y⟩ j) = X (ix2 ⟨(i 0).val, idx2_lt0 i⟩ j))
    (h1 : ∀ j : Fin 128, x1 (ix2 j ⟨(y 1).val, idx2_lt1 y⟩) = W (ix2 j ⟨(i 1).val, idx2_lt1 i⟩)) :
    k4_pay1 x0 x1 y = prod X W i := by
  obtain ⟨p, q, rfl⟩ : ∃ (p : Fin 10000) (q : Fin 128), y = ix2 p q := ⟨y 0, y 1, eq_ix2 y⟩
  rw [pay4_apply]
  unfold prod
  exact Finset.sum_congr rfl fun j _ => congrArg₂ (· * ·) (h0 j) (h1 j)

/-- Region 4's index maps, decided over its one-point grid: every window's block is the block at the origin. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What a point of region 4 writes back: its block of the product of the two arrays the region reads. -/
theorem flushed4_eq (c : Dev nD) (t : Fin cfg4.N) :
    (dat4 (F := Ideal) V c).flushed 2 t = ((cfg4.win 2).blk t).view.read (Elt Ideal) (prod (a63 V c) (aW3 V c)) := by
  show (cfg4.win 2).cut (grid4.coords t) ((dat4 (F := Ideal) V c).after 2 t) = _
  rw [after4_2]
  unfold out4_2
  rw [View.canon_unit_zero hz]
  simp only [View.ld_unit_zero (S := S10000x128) hz, View.ld_unit_zero (S := S128x128) hz]
  obtain ⟨e0, e1, e2, e3, e4, e5⟩ := idx_facts4 t
  funext y
  show k4_pay1 (iblk4 V c 0 t) (iblk4 V c 1 t) y = prod (a63 V c) (aW3 V c) (((cfg4.win 2).blk t).view.emb y)
  refine pay4_at _ _ _ _ y _ ?_ ?_
  · intro j
    show V c main_v63 (((cfg4.win 0).blk t).view.emb (ix2 ⟨(y 0).val, _⟩ j)) = V c main_v63 (ix2 ⟨((((cfg4.win 2).blk t).view.emb y) 0).val, _⟩ j)
    refine congrArg (V c main_v63) (funext fun a => Fin.ext ?_)
    match a with
    | ⟨0, _⟩ => show win4_0.index t (0 : Fin 2) * 10000 + 1 * (y 0).val = win4_2.index t (0 : Fin 2) * 10000 + 1 * (y 0).val; omega
    | ⟨1, _⟩ => show win4_0.index t (1 : Fin 2) * 128 + 1 * j.val = j.val; omega
  · intro j
    show V c main_arg7 (((cfg4.win 1).blk t).view.emb (ix2 j ⟨(y 1).val, _⟩)) = V c main_arg7 (ix2 j ⟨((((cfg4.win 2).blk t).view.emb y) 1).val, _⟩)
    refine congrArg (V c main_arg7) (funext fun a => Fin.ext ?_)
    match a with
    | ⟨0, _⟩ => show win4_1.index t (0 : Fin 2) * 128 + 1 * j.val = j.val; omega
    | ⟨1, _⟩ => show win4_1.index t (1 : Fin 2) * 128 + 1 * (y 1).val = win4_2.index t (1 : Fin 2) * 128 + 1 * (y 1).val; omega

/-- An entry of the array is in a point's block iff each coordinate is in the block's range on its axis. -/
theorem mem_blk4 (t : Fin cfg4.N) (i : S10000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v64).slice (win4_2.rect t)).set ↔ _
  rw [View.set_slice_whole, Rect.mem_set_unit]
  exact Iff.rfl

/-- The one block of region 4's output is the whole array. -/
theorem cover4 (i : S10000x128.Idx) :
    ∃ t : Fin cfg4.N, (cfg4.win 2).flush t = true ∧ i ∈ ((cfg4.win 2).blk t).view.set := by
  have hi0 : (i 0).val < 10000 := (i 0).isLt
  have hi1 : (i 1).val < 128 := (i 1).isLt
  refine ⟨t4_0, flush4_2 t4_0, ?_⟩
  rw [mem_blk4]
  obtain ⟨e0, e1, e2, e3, e4, e5⟩ := idx_facts4 t4_0
  intro a
  match a with
  | ⟨0, _⟩ => show win4_2.index t4_0 (0 : Fin 2) * 10000 ≤ (i 0).val ∧ (i 0).val < win4_2.index t4_0 (0 : Fin 2) * 10000 + 10000; omega
  | ⟨1, _⟩ => show win4_2.index t4_0 (1 : Fin 2) * 128 ≤ (i 1).val ∧ (i 1).val < win4_2.index t4_0 (1 : Fin 2) * 128 + 128; omega

/-- Region 4's output array after the region: the product of the second layer's output and the third weight matrix. -/
theorem final4 (c : Dev nD) : o4 V c = prod (a63 V c) (aW3 V c) :=
  (dat4 (F := Ideal) V c).arrAt_eq_of_cover 2 (prod (a63 V c) (aW3 V c)) (fun t _ => flushed4_eq V c t) cover4

/-- Region 4 (hidden features times the third weight matrix). -/
theorem final4_apply (c : Dev nD) (n : Fin 10000) (k : Fin 128) :
    o4 V c (ix2 n k) = ∑ j : Fin 128, a63 V c (ix2 n j) * aW3 V c (ix2 j k) := by
  rw [final4]
  rfl

end Cert.KernelIdeal.RegLin

end
-- ==== Proof.KRegSpmm.lean ====
import proofs.«404086_j7035156431295_1_alg».proof.Proof.Gen.KernelIdeal.Frame
import proofs.«404086_j7035156431295_1_alg».proof.Proof.Spec
import proofs.«404086_j7035156431295_1_alg».proof.Proof.KArr
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegSpmm

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Arr

-- the TensorCore's buffer contents when a region is entered
variable (V : (c : Dev nD) → (b : Ref sig .tc) → Buf (Elt Ideal) ((c : Thread nD τ).loc b))

/-! The three regions that multiply the dense adjacency matrix by a layer's features and add the bias row
    (the first two then apply tanh). Each region runs over 25 grid points; point t reads rows 400 t … 400 t + 399 of
    the [10000, 10000] adjacency, the whole [10000, 128] features and the whole [1, 128] bias row, and writes rows
    400 t … 400 t + 399 of the [10000, 128] output. So entry (n, k) of the output is written once, by point n / 400,
    from row n of the adjacency: it is the sum over j of adjacency (n, j) times features (j, k), plus bias k. -/

/-- The zero offsets of a whole-buffer access. -/
theorem hz : (![0, 0] : Fin 2 → Nat) = fun _ => 0 := funext fun a => by fin_cases a <;> rfl

/-! ## The matrix product of a row block with the features, at an index -/

/-- The left operand of the product is read at the output's row. -/
theorem lhs_mm_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column is the summation index. -/
theorem lhs_mm_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the summation index. -/
theorem rhs_mm_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand is read at the output's column. -/
theorem rhs_mm_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product of a [400, 10000] block with the [10000, 128] features into a zero accumulator, at row p and column q:
    the sum over the 10000 columns j of the block's entry (p, j) times the features' entry (j, q). -/
theorem mm_apply (x0 : FVec Ideal S400x10000 .bf16) (x1 : FVec Ideal S10000x128 .bf16) (p : Fin 400) (q : Fin 128) :
    matmul dot_S400x10000_S10000x128_S400x128_1_0_0_1_n_n none x0 x1 (constant (F := Ideal) S400x128 .f32 0x00000000#32) (ix2 p q)
      = ∑ j : Fin 10000, x0 (ix2 p j) * x1 (ix2 j q) := by
  show FloatOps.matmul dot_S400x10000_S10000x128_S400x128_1_0_0_1_n_n none x0 x1 (constant (F := Ideal) S400x128 .f32 0x00000000#32) (ix2 p q) = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_mm_0 _ _
    | ⟨1, _⟩ => exact (lhs_mm_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_mm_0 _ _).trans hk
    | ⟨1, _⟩ => exact rhs_mm_1 _ _)
  rw [el, er]

/-! ## The first layer (with tanh) -/

/-- The first layer's body at row p and column q of its output block: tanh of the product's entry plus the bias row's
    entry q (the final change of format is the identity on ideal values). -/
theorem pay1_apply (x0 : Vec Ideal S400x10000 .bf16) (x1 : Vec Ideal S10000x128 .bf16) (x2 : Vec Ideal S1x128 .f32) (p : Fin 400) (q : Fin 128) :
    k1_pay1 x0 x1 x2 (ix2 p q) = Ideal.tanh ((∑ j : Fin 10000, x0 (ix2 p j) * x1 (ix2 j q)) + x2 (ix2 (0 : Fin 1) q)) := by
  unfold k1_pay1
  simp only [shapeCast_self]
  show Ideal.tanh (addf (matmul dot_S400x10000_S10000x128_S400x128_1_0_0_1_n_n none x0 x1 (constant (F := Ideal) S400x128 .f32 0x00000000#32)) (broadcastTo S400x128 x2 broadcasts_S1x128_S400x128) (ix2 p q)) = _
  rw [addf_apply, mm_apply]
  congr 2
  refine broadcastTo_apply x2 broadcasts_S1x128_S400x128 (ix2 p q) (ix2 (0 : Fin 1) q) (fun a => ?_)
  match a with
  | ⟨0, _⟩ => rfl
  | ⟨1, _⟩ => rfl

/-- Tanh of adjacency times features plus the bias row, as one function of the three arrays. -/
abbrev G1 (A : S10000x10000.Idx → EReal) (H : S10000x128.Idx → EReal) (b : S1x128.Idx → EReal) : S10000x128.Idx → EReal :=
  fun i => Ideal.tanh ((∑ j : Fin 10000, A (ix2 (i 0) j) * H (ix2 j (i 1))) + b (ix2 (0 : Fin 1) (i 1)))

/-- The block indices over the 25 grid points: the adjacency and the output move down one row block per point,
    the features and the bias stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A grid point's number is below 25. -/
theorem lt1 (t : Fin cfg1.N) : t.val < 25 := lt_of_lt_of_eq t.isLt N_1

/-- The adjacency's block at point t holds rows 400 t … 400 t + 399. -/
theorem blk1_0_apply (c : Dev nD) (t : Fin cfg1.N) (p : Fin 400) (j : Fin 10000) (n : Fin 10000) (hn : n.val = t.val * 400 + p.val) :
    (iblk1 V c 0 t : Vec Ideal S400x10000 .bf16) (ix2 p j) = aAdj V c (ix2 n j) := by
  obtain ⟨e0, e1, -⟩ := idx_facts1 t
  unfold iblk1
  show V c main_v57 (((cfg1.win 0).blk t).view.emb (ix2 p j)) = V c main_v57 (ix2 n j)
  refine congrArg _ ?_
  funext a; apply Fin.ext
  match a with
  | ⟨0, _⟩ => show win1_0.index t (0 : Fin 2) * 400 + 1 * p.val = n.val; omega
  | ⟨1, _⟩ => show win1_0.index t (1 : Fin 2) * 10000 + 1 * j.val = j.val; omega

/-- The features' block at every point is the whole array. -/
theorem blk1_1_apply (c : Dev nD) (t : Fin cfg1.N) (j : Fin 10000) (q : Fin 128) :
    (iblk1 V c 1 t : Vec Ideal S10000x128 .bf16) (ix2 j q) = a58 V c (ix2 j q) := by
  obtain ⟨-, -, e2, e3, -⟩ := idx_facts1 t
  unfold iblk1
  show V c main_v58 (((cfg1.win 1).blk t).view.emb (ix2 j q)) = V c main_v58 (ix2 j q)
  refine congrArg _ ?_
  funext a; apply Fin.ext
  match a with
  | ⟨0, _⟩ => show win1_1.index t (0 : Fin 2) * 10000 + 1 * j.val = j.val; omega
  | ⟨1, _⟩ => show win1_1.index t (1 : Fin 2) * 128 + 1 * q.val = q.val; omega

/-- The bias row's block at every point is the whole row. -/
theorem blk1_2_apply (c : Dev nD) (t : Fin cfg1.N) (z : Fin 1) (q : Fin 128) :
    (iblk1 V c 2 t : Vec Ideal S1x128 .f32) (ix2 z q) = a59 V c (ix2 z q) := by
  obtain ⟨-, -, -, -, e4, e5, -⟩ := idx_facts1 t
  unfold iblk1
  show V c main_v59 (((cfg1.win 2).blk t).view.emb (ix2 z q)) = V c main_v59 (ix2 z q)
  refine congrArg _ ?_
  funext a; apply Fin.ext
  match a with
  | ⟨0, _⟩ => show win1_2.index t (0 : Fin 2) * 1 + 1 * z.val = z.val; omega
  | ⟨1, _⟩ => show win1_2.index t (1 : Fin 2) * 128 + 1 * q.val = q.val; omega

/-- The output's block at point t sits at rows 400 t … 400 t + 399. -/
theorem emb1_3 (t : Fin cfg1.N) (p : Fin 400) (q : Fin 128) (n : Fin 10000) (hn : n.val = t.val * 400 + p.val) :
    ((cfg1.win 3).blk t).view.emb (ix2 p q) = (ix2 n q : S10000x128.Idx) := by
  obtain ⟨-, -, -, -, -, -, e6, e7⟩ := idx_facts1 t
  funext a; apply Fin.ext
  match a with
  | ⟨0, _⟩ => show win1_3.index t (0 : Fin 2) * 400 + 1 * p.val = n.val; omega
  | ⟨1, _⟩ => show win1_3.index t (1 : Fin 2) * 128 + 1 * q.val = q.val; omega

/-- What point t writes back is block t of the whole-array function. -/
theorem flushed1_eq (c : Dev nD) (t : Fin cfg1.N) :
    (dat1 V c).flushed 3 t = ((cfg1.win 3).blk t).view.read (Elt Ideal) (G1 (aAdj V c) (a58 V c) (a59 V c)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x128) hz, View.ld_unit_zero (S := S1x128) hz]
  funext j
  obtain ⟨p, q, rfl⟩ : ∃ (p : Fin 400) (q : Fin 128), j = ix2 p q := ⟨j 0, j 1, eq_ix2 j⟩
  have ht := lt1 t
  have hp := p.isLt
  show k1_pay1 (iblk1 V c 0 t) (iblk1 V c 1 t) (iblk1 V c 2 t) (ix2 p q) = G1 (aAdj V c) (a58 V c) (a59 V c) (((cfg1.win 3).blk t).view.emb (ix2 p q))
  rw [emb1_3 t p q ⟨t.val * 400 + p.val, by omega⟩ rfl]
  refine (pay1_apply _ _ _ p q).trans ?_
  show _ = Ideal.tanh ((∑ j : Fin 10000, aAdj V c (ix2 (⟨t.val * 400 + p.val, by omega⟩ : Fin 10000) j) * a58 V c (ix2 j q)) + a59 V c (ix2 (0 : Fin 1) q))
  congr 2
  · refine Finset.sum_congr rfl fun j _ => ?_
    exact congrArg₂ (· * ·) (blk1_0_apply V c t p j ⟨t.val * 400 + p.val, by omega⟩ rfl) (blk1_1_apply V c t j q)
  · exact blk1_2_apply V c t 0 q

/-- An index of the array is in point t's block iff each coordinate is in the block's range on its axis. -/
theorem mem_blk1 (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v60).slice (win1_3.rect t)).set ↔ _
  rw [View.set_slice_whole, Rect.mem_set_unit]
  exact Iff.rfl

/-- Every row of the array is in some point's block: row r in that of point r / 400. -/
theorem cover1 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : (i 0).val / 400 < cfg1.N := lt_of_lt_of_eq (by omega : (i 0).val / 400 < 25) N_1.symm
  refine ⟨⟨(i 0).val / 400, hN⟩, flush1_3 _, ?_⟩
  rw [mem_blk1]
  obtain ⟨-, -, -, -, -, -, e6, e7⟩ := idx_facts1 ⟨(i 0).val / 400, hN⟩
  have e6' : win1_3.index ⟨(i 0).val / 400, hN⟩ (0 : Fin 2) = (i 0).val / 400 := e6
  intro a
  match a with
  | ⟨0, _⟩ => show win1_3.index ⟨(i 0).val / 400, hN⟩ (0 : Fin 2) * 400 ≤ (i 0).val ∧ (i 0).val < win1_3.index ⟨(i 0).val / 400, hN⟩ (0 : Fin 2) * 400 + 400; omega
  | ⟨1, _⟩ => show win1_3.index ⟨(i 0).val / 400, hN⟩ (1 : Fin 2) * 128 ≤ (i 1).val ∧ (i 1).val < win1_3.index ⟨(i 0).val / 400, hN⟩ (1 : Fin 2) * 128 + 128; omega

/-- The first layer's output array after the region is tanh of adjacency times features plus bias. -/
theorem final1 (c : Dev nD) : o1 V c = G1 (aAdj V c) (a58 V c) (a59 V c) :=
  (dat1 (F := Ideal) V c).arrAt_eq_of_cover 3 (G1 (aAdj V c) (a58 V c) (a59 V c)) (fun t _ => flushed1_eq V c t) cover1

/-- Region 1 (adjacency times features, plus bias, then tanh): the output array after the region, read at row n and column k. -/
theorem final1_apply (c : Dev nD) (n : Fin 10000) (k : Fin 128) :
    o1 V c (ix2 n k) = Ideal.tanh ((∑ j : Fin 10000, aAdj V c (ix2 n j) * a58 V c (ix2 j k)) + a59 V c (ix2 (0 : Fin 1) k)) := by
  rw [final1]

/-! ## The second layer (with tanh) -/

/-- The second layer's body at row p and column q of its output block: tanh of the product's entry plus the bias row's
    entry q (the final change of format is the identity on ideal values). -/
theorem pay3_apply (x0 : Vec Ideal S400x10000 .bf16) (x1 : Vec Ideal S10000x128 .bf16) (x2 : Vec Ideal S1x128 .f32) (p : Fin 400) (q : Fin 128) :
    k3_pay1 x0 x1 x2 (ix2 p q) = Ideal.tanh ((∑ j : Fin 10000, x0 (ix2 p j) * x1 (ix2 j q)) + x2 (ix2 (0 : Fin 1) q)) := by
  unfold k3_pay1
  simp only [shapeCast_self]
  show Ideal.tanh (addf (matmul dot_S400x10000_S10000x128_S400x128_1_0_0_1_n_n none x0 x1 (constant (F := Ideal) S400x128 .f32 0x00000000#32)) (broadcastTo S400x128 x2 broadcasts_S1x128_S400x128) (ix2 p q)) = _
  rw [addf_apply, mm_apply]
  congr 2
  refine broadcastTo_apply x2 broadcasts_S1x128_S400x128 (ix2 p q) (ix2 (0 : Fin 1) q) (fun a => ?_)
  match a with
  | ⟨0, _⟩ => rfl
  | ⟨1, _⟩ => rfl

/-- The block indices over the 25 grid points of the second layer's region. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A grid point's number is below 25. -/
theorem lt3 (t : Fin cfg3.N) : t.val < 25 := lt_of_lt_of_eq t.isLt N_3

/-- The adjacency's block at point t holds rows 400 t … 400 t + 399. -/
theorem blk3_0_apply (c : Dev nD) (t : Fin cfg3.N) (p : Fin 400) (j : Fin 10000) (n : Fin 10000) (hn : n.val = t.val * 400 + p.val) :
    (iblk3 V c 0 t : Vec Ideal S400x10000 .bf16) (ix2 p j) = aAdj V c (ix2 n j) := by
  obtain ⟨e0, e1, -⟩ := idx_facts3 t
  unfold iblk3
  show V c main_v57 (((cfg3.win 0).blk t).view.emb (ix2 p j)) = V c main_v57 (ix2 n j)
  refine congrArg _ ?_
  funext a; apply Fin.ext
  match a with
  | ⟨0, _⟩ => show win3_0.index t (0 : Fin 2) * 400 + 1 * p.val = n.val; omega
  | ⟨1, _⟩ => show win3_0.index t (1 : Fin 2) * 10000 + 1 * j.val = j.val; omega

/-- The features' block at every point is the whole array. -/
theorem blk3_1_apply (c : Dev nD) (t : Fin cfg3.N) (j : Fin 10000) (q : Fin 128) :
    (iblk3 V c 1 t : Vec Ideal S10000x128 .bf16) (ix2 j q) = a61 V c (ix2 j q) := by
  obtain ⟨-, -, e2, e3, -⟩ := idx_facts3 t
  unfold iblk3
  show V c main_v61 (((cfg3.win 1).blk t).view.emb (ix2 j q)) = V c main_v61 (ix2 j q)
  refine congrArg _ ?_
  funext a; apply Fin.ext
  match a with
  | ⟨0, _⟩ => show win3_1.index t (0 : Fin 2) * 10000 + 1 * j.val = j.val; omega
  | ⟨1, _⟩ => show win3_1.index t (1 : Fin 2) * 128 + 1 * q.val = q.val; omega

/-- The bias row's block at every point is the whole row. -/
theorem blk3_2_apply (c : Dev nD) (t : Fin cfg3.N) (z : Fin 1) (q : Fin 128) :
    (iblk3 V c 2 t : Vec Ideal S1x128 .f32) (ix2 z q) = a62 V c (ix2 z q) := by
  obtain ⟨-, -, -, -, e4, e5, -⟩ := idx_facts3 t
  unfold iblk3
  show V c main_v62 (((cfg3.win 2).blk t).view.emb (ix2 z q)) = V c main_v62 (ix2 z q)
  refine congrArg _ ?_
  funext a; apply Fin.ext
  match a with
  | ⟨0, _⟩ => show win3_2.index t (0 : Fin 2) * 1 + 1 * z.val = z.val; omega
  | ⟨1, _⟩ => show win3_2.index t (1 : Fin 2) * 128 + 1 * q.val = q.val; omega

/-- The output's block at point t sits at rows 400 t … 400 t + 399. -/
theorem emb3_3 (t : Fin cfg3.N) (p : Fin 400) (q : Fin 128) (n : Fin 10000) (hn : n.val = t.val * 400 + p.val) :
    ((cfg3.win 3).blk t).view.emb (ix2 p q) = (ix2 n q : S10000x128.Idx) := by
  obtain ⟨-, -, -, -, -, -, e6, e7⟩ := idx_facts3 t
  funext a; apply Fin.ext
  match a with
  | ⟨0, _⟩ => show win3_3.index t (0 : Fin 2) * 400 + 1 * p.val = n.val; omega
  | ⟨1, _⟩ => show win3_3.index t (1 : Fin 2) * 128 + 1 * q.val = q.val; omega

/-- What point t writes back is block t of the whole-array function (the same function as the first layer's, of the
    second layer's arrays). -/
theorem flushed3_eq (c : Dev nD) (t : Fin cfg3.N) :
    (dat3 V c).flushed 3 t = ((cfg3.win 3).blk t).view.read (Elt Ideal) (G1 (aAdj V c) (a61 V c) (a62 V c)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x128) hz, View.ld_unit_zero (S := S1x128) hz]
  funext j
  obtain ⟨p, q, rfl⟩ : ∃ (p : Fin 400) (q : Fin 128), j = ix2 p q := ⟨j 0, j 1, eq_ix2 j⟩
  have ht := lt3 t
  have hp := p.isLt
  show k3_pay1 (iblk3 V c 0 t) (iblk3 V c 1 t) (iblk3 V c 2 t) (ix2 p q) = G1 (aAdj V c) (a61 V c) (a62 V c) (((cfg3.win 3).blk t).view.emb (ix2 p q))
  rw [emb3_3 t p q ⟨t.val * 400 + p.val, by omega⟩ rfl]
  refine (pay3_apply _ _ _ p q).trans ?_
  show _ = Ideal.tanh ((∑ j : Fin 10000, aAdj V c (ix2 (⟨t.val * 400 + p.val, by omega⟩ : Fin 10000) j) * a61 V c (ix2 j q)) + a62 V c (ix2 (0 : Fin 1) q))
  congr 2
  · refine Finset.sum_congr rfl fun j _ => ?_
    exact congrArg₂ (· * ·) (blk3_0_apply V c t p j ⟨t.val * 400 + p.val, by omega⟩ rfl) (blk3_1_apply V c t j q)
  · exact blk3_2_apply V c t 0 q

/-- An index of the array is in point t's block iff each coordinate is in the block's range on its axis. -/
theorem mem_blk3 (t : Fin cfg3.N) (i : S10000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v63).slice (win3_3.rect t)).set ↔ _
  rw [View.set_slice_whole, Rect.mem_set_unit]
  exact Iff.rfl

/-- Every row of the array is in some point's block: row r in that of point r / 400. -/
theorem cover3 (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : (i 0).val / 400 < cfg3.N := lt_of_lt_of_eq (by omega : (i 0).val / 400 < 25) N_3.symm
  refine ⟨⟨(i 0).val / 400, hN⟩, flush3_3 _, ?_⟩
  rw [mem_blk3]
  obtain ⟨-, -, -, -, -, -, e6, e7⟩ := idx_facts3 ⟨(i 0).val / 400, hN⟩
  have e6' : win3_3.index ⟨(i 0).val / 400, hN⟩ (0 : Fin 2) = (i 0).val / 400 := e6
  intro a
  match a with
  | ⟨0, _⟩ => show win3_3.index ⟨(i 0).val / 400, hN⟩ (0 : Fin 2) * 400 ≤ (i 0).val ∧ (i 0).val < win3_3.index ⟨(i 0).val / 400, hN⟩ (0 : Fin 2) * 400 + 400; omega
  | ⟨1, _⟩ => show win3_3.index ⟨(i 0).val / 400, hN⟩ (1 : Fin 2) * 128 ≤ (i 1).val ∧ (i 1).val < win3_3.index ⟨(i 0).val / 400, hN⟩ (1 : Fin 2) * 128 + 128; omega

/-- The second layer's output array after the region is tanh of adjacency times features plus bias. -/
theorem final3 (c : Dev nD) : o3 V c = G1 (aAdj V c) (a61 V c) (a62 V c) :=
  (dat3 (F := Ideal) V c).arrAt_eq_of_cover 3 (G1 (aAdj V c) (a61 V c) (a62 V c)) (fun t _ => flushed3_eq V c t) cover3

/-- Region 3 (the same at the second layer). -/
theorem final3_apply (c : Dev nD) (n : Fin 10000) (k : Fin 128) :
    o3 V c (ix2 n k) = Ideal.tanh ((∑ j : Fin 10000, aAdj V c (ix2 n j) * a61 V c (ix2 j k)) + a62 V c (ix2 (0 : Fin 1) k)) := by
  rw [final3]

/-! ## The third layer (no tanh) -/

/-- The third layer's body at row p and column q of its output block: the product's entry plus the bias row's entry q. -/
theorem pay5_apply (x0 : Vec Ideal S400x10000 .bf16) (x1 : Vec Ideal S10000x128 .bf16) (x2 : Vec Ideal S1x128 .f32) (p : Fin 400) (q : Fin 128) :
    k5_pay1 x0 x1 x2 (ix2 p q) = (∑ j : Fin 10000, x0 (ix2 p j) * x1 (ix2 j q)) + x2 (ix2 (0 : Fin 1) q) := by
  unfold k5_pay1
  simp only [shapeCast_self]
  rw [addf_apply, mm_apply]
  congr 1
  refine broadcastTo_apply x2 broadcasts_S1x128_S400x128 (ix2 p q) (ix2 (0 : Fin 1) q) (fun a => ?_)
  match a with
  | ⟨0, _⟩ => rfl
  | ⟨1, _⟩ => rfl

/-- Adjacency times features plus the bias row, as one function of the three arrays. -/
abbrev G5 (A : S10000x10000.Idx → EReal) (H : S10000x128.Idx → EReal) (b : S1x128.Idx → EReal) : S10000x128.Idx → EReal :=
  fun i => (∑ j : Fin 10000, A (ix2 (i 0) j) * H (ix2 j (i 1))) + b (ix2 (0 : Fin 1) (i 1))

/-- The block indices over the 25 grid points: the adjacency and the output move down one row block per point,
    the features and the bias stay whole. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A grid point's number is below 25. -/
theorem lt5 (t : Fin cfg5.N) : t.val < 25 := lt_of_lt_of_eq t.isLt N_5

/-- The adjacency's block at point t holds rows 400 t … 400 t + 399. -/
theorem blk5_0_apply (c : Dev nD) (t : Fin cfg5.N) (p : Fin 400) (j : Fin 10000) (n : Fin 10000) (hn : n.val = t.val * 400 + p.val) :
    (iblk5 V c 0 t : Vec Ideal S400x10000 .bf16) (ix2 p j) = aAdj V c (ix2 n j) := by
  obtain ⟨e0, e1, -⟩ := idx_facts5 t
  unfold iblk5
  show V c main_v57 (((cfg5.win 0).blk t).view.emb (ix2 p j)) = V c main_v57 (ix2 n j)
  refine congrArg _ ?_
  funext a; apply Fin.ext
  match a with
  | ⟨0, _⟩ => show win5_0.index t (0 : Fin 2) * 400 + 1 * p.val = n.val; omega
  | ⟨1, _⟩ => show win5_0.index t (1 : Fin 2) * 10000 + 1 * j.val = j.val; omega

/-- The features' block at every point is the whole array. -/
theorem blk5_1_apply (c : Dev nD) (t : Fin cfg5.N) (j : Fin 10000) (q : Fin 128) :
    (iblk5 V c 1 t : Vec Ideal S10000x128 .bf16) (ix2 j q) = a64 V c (ix2 j q) := by
  obtain ⟨-, -, e2, e3, -⟩ := idx_facts5 t
  unfold iblk5
  show V c main_v64 (((cfg5.win 1).blk t).view.emb (ix2 j q)) = V c main_v64 (ix2 j q)
  refine congrArg _ ?_
  funext a; apply Fin.ext
  match a with
  | ⟨0, _⟩ => show win5_1.index t (0 : Fin 2) * 10000 + 1 * j.val = j.val; omega
  | ⟨1, _⟩ => show win5_1.index t (1 : Fin 2) * 128 + 1 * q.val = q.val; omega

/-- The bias row's block at every point is the whole row. -/
theorem blk5_2_apply (c : Dev nD) (t : Fin cfg5.N) (z : Fin 1) (q : Fin 128) :
    (iblk5 V c 2 t : Vec Ideal S1x128 .f32) (ix2 z q) = a65 V c (ix2 z q) := by
  obtain ⟨-, -, -, -, e4, e5, -⟩ := idx_facts5 t
  unfold iblk5
  show V c main_v65 (((cfg5.win 2).blk t).view.emb (ix2 z q)) = V c main_v65 (ix2 z q)
  refine congrArg _ ?_
  funext a; apply Fin.ext
  match a with
  | ⟨0, _⟩ => show win5_2.index t (0 : Fin 2) * 1 + 1 * z.val = z.val; omega
  | ⟨1, _⟩ => show win5_2.index t (1 : Fin 2) * 128 + 1 * q.val = q.val; omega

/-- The output's block at point t sits at rows 400 t … 400 t + 399. -/
theorem emb5_3 (t : Fin cfg5.N) (p : Fin 400) (q : Fin 128) (n : Fin 10000) (hn : n.val = t.val * 400 + p.val) :
    ((cfg5.win 3).blk t).view.emb (ix2 p q) = (ix2 n q : S10000x128.Idx) := by
  obtain ⟨-, -, -, -, -, -, e6, e7⟩ := idx_facts5 t
  funext a; apply Fin.ext
  match a with
  | ⟨0, _⟩ => show win5_3.index t (0 : Fin 2) * 400 + 1 * p.val = n.val; omega
  | ⟨1, _⟩ => show win5_3.index t (1 : Fin 2) * 128 + 1 * q.val = q.val; omega

/-- What point t writes back is block t of the whole-array function. -/
theorem flushed5_eq (c : Dev nD) (t : Fin cfg5.N) :
    (dat5 V c).flushed 3 t = ((cfg5.win 3).blk t).view.read (Elt Ideal) (G5 (aAdj V c) (a64 V c) (a65 V c)) := by
  show (cfg5.win 3).cut (grid5.coords t) ((dat5 V c).after 3 t) = _
  rw [after5_3]
  unfold out5_3
  rw [View.canon_unit_zero hz]
  simp only [View.ld_unit_zero (S := S400x10000) hz, View.ld_unit_zero (S := S10000x128) hz, View.ld_unit_zero (S := S1x128) hz]
  funext j
  obtain ⟨p, q, rfl⟩ : ∃ (p : Fin 400) (q : Fin 128), j = ix2 p q := ⟨j 0, j 1, eq_ix2 j⟩
  have ht := lt5 t
  have hp := p.isLt
  show k5_pay1 (iblk5 V c 0 t) (iblk5 V c 1 t) (iblk5 V c 2 t) (ix2 p q) = G5 (aAdj V c) (a64 V c) (a65 V c) (((cfg5.win 3).blk t).view.emb (ix2 p q))
  rw [emb5_3 t p q ⟨t.val * 400 + p.val, by omega⟩ rfl]
  refine (pay5_apply _ _ _ p q).trans ?_
  show _ = (∑ j : Fin 10000, aAdj V c (ix2 (⟨t.val * 400 + p.val, by omega⟩ : Fin 10000) j) * a64 V c (ix2 j q)) + a65 V c (ix2 (0 : Fin 1) q)
  congr 1
  · refine Finset.sum_congr rfl fun j _ => ?_
    exact congrArg₂ (· * ·) (blk5_0_apply V c t p j ⟨t.val * 400 + p.val, by omega⟩ rfl) (blk5_1_apply V c t j q)
  · exact blk5_2_apply V c t 0 q

/-- An index of the array is in point t's block iff each coordinate is in the block's range on its axis. -/
theorem mem_blk5 (t : Fin cfg5.N) (i : S10000x128.Idx) :
    i ∈ ((cfg5.win 3).blk t).view.set ↔ ∀ a : Fin 2, win5_3.index t a * S400x128.size a ≤ (i a).val ∧ (i a).val < win5_3.index t a * S400x128.size a + S400x128.size a := by
  show i ∈ ((View.whole main_v66).slice (win5_3.rect t)).set ↔ _
  rw [View.set_slice_whole, Rect.mem_set_unit]
  exact Iff.rfl

/-- Every row of the array is in some point's block: row r in that of point r / 400. -/
theorem cover5 (i : S10000x128.Idx) :
    ∃ t : Fin cfg5.N, (cfg5.win 3).flush t = true ∧ i ∈ ((cfg5.win 3).blk t).view.set := by
  have hi0 : (i 0).val < 10000 := (i 0).isLt
  have hi1 : (i 1).val < 128 := (i 1).isLt
  have hN : (i 0).val / 400 < cfg5.N := lt_of_lt_of_eq (by omega : (i 0).val / 400 < 25) N_5.symm
  refine ⟨⟨(i 0).val / 400, hN⟩, flush5_3 _, ?_⟩
  rw [mem_blk5]
  obtain ⟨-, -, -, -, -, -, e6, e7⟩ := idx_facts5 ⟨(i 0).val / 400, hN⟩
  have e6' : win5_3.index ⟨(i 0).val / 400, hN⟩ (0 : Fin 2) = (i 0).val / 400 := e6
  intro a
  match a with
  | ⟨0, _⟩ => show win5_3.index ⟨(i 0).val / 400, hN⟩ (0 : Fin 2) * 400 ≤ (i 0).val ∧ (i 0).val < win5_3.index ⟨(i 0).val / 400, hN⟩ (0 : Fin 2) * 400 + 400; omega
  | ⟨1, _⟩ => show win5_3.index ⟨(i 0).val / 400, hN⟩ (1 : Fin 2) * 128 ≤ (i 1).val ∧ (i 1).val < win5_3.index ⟨(i 0).val / 400, hN⟩ (1 : Fin 2) * 128 + 128; omega

/-- The third layer's output array after the region is adjacency times features plus bias. -/
theorem final5 (c : Dev nD) : o5 V c = G5 (aAdj V c) (a64 V c) (a65 V c) :=
  (dat5 (F := Ideal) V c).arrAt_eq_of_cover 3 (G5 (aAdj V c) (a64 V c) (a65 V c)) (fun t _ => flushed5_eq V c t) cover5

/-- Region 5 (the third layer: no tanh). -/
theorem final5_apply (c : Dev nD) (n : Fin 10000) (k : Fin 128) :
    o5 V c (ix2 n k) = (∑ j : Fin 10000, aAdj V c (ix2 n j) * a64 V c (ix2 j k)) + a65 V c (ix2 (0 : Fin 1) k) := by
  rw [final5]

end Cert.KernelIdeal.RegSpmm

end
-- ==== Proof.KChain.lean ====
import proofs.«404086_j7035156431295_1_alg».proof.Proof.Gen.KernelIdeal.Frame
import proofs.«404086_j7035156431295_1_alg».proof.Proof.Spec
import proofs.«404086_j7035156431295_1_alg».proof.Proof.KArr
import proofs.«404086_j7035156431295_1_alg».proof.Proof.KRegLin
import proofs.«404086_j7035156431295_1_alg».proof.Proof.KRegSpmm
import proofs.«404086_j7035156431295_1_alg».proof.Proof.SpecNet
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Arr Cert.KernelIdeal.RegLin Cert.KernelIdeal.RegSpmm

/-! The buffer contents at the boundaries between the host stretches and the six regions form a fold from the launch
    memory. Here the fold is read: the adjacency matrix, the weights and the biases reach every region as the first
    host stretch or the launch left them (nothing in between writes them), each region's input features are the
    previous region's output, and so the result buffer holds the three-layer network in the dense form. -/

variable (m : (ℓ : Loc nD τ sig) → Buf (Elt Ideal) ℓ) (ρ : Dev nD → PrngReg)

/-- A stretch of host operations leaves a buffer it does not write as it was. -/
macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments as launched, at their literal types -/

abbrev mX (c : Dev nD) : S10000x128.Idx → EReal := m ((c : Thread nD τ).loc main_arg1)
abbrev mW1 (c : Dev nD) : S128x128.Idx → EReal := m ((c : Thread nD τ).loc main_arg3)
abbrev mB1 (c : Dev nD) : S128.Idx → EReal := m ((c : Thread nD τ).loc main_arg4)
abbrev mW2 (c : Dev nD) : S128x128.Idx → EReal := m ((c : Thread nD τ).loc main_arg5)
abbrev mB2 (c : Dev nD) : S128.Idx → EReal := m ((c : Thread nD τ).loc main_arg6)
abbrev mW3 (c : Dev nD) : S128x128.Idx → EReal := m ((c : Thread nD τ).loc main_arg7)
abbrev mB3 (c : Dev nD) : S128.Idx → EReal := m ((c : Thread nD τ).loc main_arg8)

/-! ## One step of the fold at a buffer the step does not write -/

section Steps
variable (c : Dev nD)

theorem h0_arg1 : W1 m ρ c (Proc.devRef .tc main_arg1) = W0 m ρ c (Proc.devRef .tc main_arg1) := by host_skip hostOps0
theorem h0_arg3 : W1 m ρ c (Proc.devRef .tc main_arg3) = W0 m ρ c (Proc.devRef .tc main_arg3) := by host_skip hostOps0
theorem h0_arg4 : W1 m ρ c (Proc.devRef .tc main_arg4) = W0 m ρ c (Proc.devRef .tc main_arg4) := by host_skip hostOps0
theorem h0_arg5 : W1 m ρ c (Proc.devRef .tc main_arg5) = W0 m ρ c (Proc.devRef .tc main_arg5) := by host_skip hostOps0
theorem h0_arg6 : W1 m ρ c (Proc.devRef .tc main_arg6) = W0 m ρ c (Proc.devRef .tc main_arg6) := by host_skip hostOps0
theorem h0_arg7 : W1 m ρ c (Proc.devRef .tc main_arg7) = W0 m ρ c (Proc.devRef .tc main_arg7) := by host_skip hostOps0
theorem h0_arg8 : W1 m ρ c (Proc.devRef .tc main_arg8) = W0 m ρ c (Proc.devRef .tc main_arg8) := by host_skip hostOps0

theorem h1_arg5 : W3 m ρ c (Proc.devRef .tc main_arg5) = W2 m ρ c (Proc.devRef .tc main_arg5) := by host_skip hostOps1
theorem h1_arg6 : W3 m ρ c (Proc.devRef .tc main_arg6) = W2 m ρ c (Proc.devRef .tc main_arg6) := by host_skip hostOps1
theorem h1_arg7 : W3 m ρ c (Proc.devRef .tc main_arg7) = W2 m ρ c (Proc.devRef .tc main_arg7) := by host_skip hostOps1
theorem h1_arg8 : W3 m ρ c (Proc.devRef .tc main_arg8) = W2 m ρ c (Proc.devRef .tc main_arg8) := by host_skip hostOps1
theorem h1_v57 : W3 m ρ c (Proc.devRef .tc main_v57) = W2 m ρ c (Proc.devRef .tc main_v57) := by host_skip hostOps1
theorem h1_v58 : W3 m ρ c (Proc.devRef .tc main_v58) = W2 m ρ c (Proc.devRef .tc main_v58) := by host_skip hostOps1

theorem h3_arg7 : W6 m ρ c (Proc.devRef .tc main_arg7) = W5 m ρ c (Proc.devRef .tc main_arg7) := by host_skip hostOps3
theorem h3_arg8 : W6 m ρ c (Proc.devRef .tc main_arg8) = W5 m ρ c (Proc.devRef .tc main_arg8) := by host_skip hostOps3
theorem h3_v57 : W6 m ρ c (Proc.devRef .tc main_v57) = W5 m ρ c (Proc.devRef .tc main_v57) := by host_skip hostOps3
theorem h3_v61 : W6 m ρ c (Proc.devRef .tc main_v61) = W5 m ρ c (Proc.devRef .tc main_v61) := by host_skip hostOps3

theorem h5_v57 : W9 m ρ c (Proc.devRef .tc main_v57) = W8 m ρ c (Proc.devRef .tc main_v57) := by host_skip hostOps5
theorem h5_v64 : W9 m ρ c (Proc.devRef .tc main_v64) = W8 m ρ c (Proc.devRef .tc main_v64) := by host_skip hostOps5

end Steps

/-! ## The adjacency matrix reaches every layer as the first host stretch left it -/

theorem adj_V3 (c : Dev nD) : aAdj (V3 m ρ) c = aAdj (V1 m ρ) c :=
  (h1_v57 m ρ c).trans (W2_of_ne m ρ c main_v57 (by decide))

theorem adj_V6 (c : Dev nD) : aAdj (V6 m ρ) c = aAdj (V1 m ρ) c :=
  (h3_v57 m ρ c).trans <| (W5_of_ne m ρ c main_v57 (by decide)).trans <|
    ((W4_arr m ρ c 0).trans (((dat1 (V3 m ρ) c).arrAt_in 0 rfl _).trans (A_eq1 (V3 m ρ) c 0))).trans (adj_V3 m ρ c)

theorem adj_V9 (c : Dev nD) : aAdj (V9 m ρ) c = aAdj (V1 m ρ) c :=
  (h5_v57 m ρ c).trans <| (W8_of_ne m ρ c main_v57 (by decide)).trans <|
    ((W7_arr m ρ c 0).trans (((dat3 (V6 m ρ) c).arrAt_in 0 rfl _).trans (A_eq3 (V6 m ρ) c 0))).trans (adj_V6 m ρ c)

/-! ## The features, weights and biases reach their regions as launched -/

theorem x_V1 (c : Dev nD) : aX (V1 m ρ) c = mX m c := h0_arg1 m ρ c
theorem w1_V1 (c : Dev nD) : aW1 (V1 m ρ) c = mW1 m c := h0_arg3 m ρ c
theorem b1_V2 (c : Dev nD) : aB1 (V2 m ρ) c = mB1 m c :=
  (W2_of_ne m ρ c main_arg4 (by decide)).trans (h0_arg4 m ρ c)
theorem w2_V4 (c : Dev nD) : aW2 (V4 m ρ) c = mW2 m c :=
  (W4_of_ne m ρ c main_arg5 (by decide)).trans <| (h1_arg5 m ρ c).trans <| (W2_of_ne m ρ c main_arg5 (by decide)).trans (h0_arg5 m ρ c)
theorem b2_V5 (c : Dev nD) : aB2 (V5 m ρ) c = mB2 m c :=
  (W5_of_ne m ρ c main_arg6 (by decide)).trans <| (W4_of_ne m ρ c main_arg6 (by decide)).trans <| (h1_arg6 m ρ c).trans <|
    (W2_of_ne m ρ c main_arg6 (by decide)).trans (h0_arg6 m ρ c)
theorem w3_V7 (c : Dev nD) : aW3 (V7 m ρ) c = mW3 m c :=
  (W7_of_ne m ρ c main_arg7 (by decide)).trans <| (h3_arg7 m ρ c).trans <| (W5_of_ne m ρ c main_arg7 (by decide)).trans <|
    (W4_of_ne m ρ c main_arg7 (by decide)).trans <| (h1_arg7 m ρ c).trans <| (W2_of_ne m ρ c main_arg7 (by decide)).trans (h0_arg7 m ρ c)
theorem b3_V8 (c : Dev nD) : aB3 (V8 m ρ) c = mB3 m c :=
  (W8_of_ne m ρ c main_arg8 (by decide)).trans <| (W7_of_ne m ρ c main_arg8 (by decide)).trans <| (h3_arg8 m ρ c).trans <|
    (W5_of_ne m ρ c main_arg8 (by decide)).trans <| (W4_of_ne m ρ c main_arg8 (by decide)).trans <| (h1_arg8 m ρ c).trans <|
    (W2_of_ne m ρ c main_arg8 (by decide)).trans (h0_arg8 m ρ c)

/-! ## Each region's input features are the previous region's output -/

theorem v58_V3 (c : Dev nD) : a58 (V3 m ρ) c = o0 (V1 m ρ) c := (h1_v58 m ρ c).trans (W2_arr m ρ c 2)
theorem v60_V4 (c : Dev nD) : a60 (V4 m ρ) c = o1 (V3 m ρ) c := W4_arr m ρ c 3
theorem v61_V6 (c : Dev nD) : a61 (V6 m ρ) c = o2 (V4 m ρ) c := (h3_v61 m ρ c).trans (W5_arr m ρ c 2)
theorem v63_V7 (c : Dev nD) : a63 (V7 m ρ) c = o3 (V6 m ρ) c := W7_arr m ρ c 3
theorem v64_V9 (c : Dev nD) : a64 (V9 m ρ) c = o4 (V7 m ρ) c := (h5_v64 m ρ c).trans (W8_arr m ρ c 2)
theorem v66_V10 (c : Dev nD) : a66 (V10 m ρ) c = o5 (V9 m ρ) c := W10_arr m ρ c 3

/-! ## A bias row is the bias vector reshaped -/

/-- The index `(0, k)` of a one-row matrix, its leading unit coordinate dropped, is `k`. -/
theorem ix2_zero_succ (k : Fin 128) : (fun a : Fin 1 => (ix2 (0 : Fin 1) k : S1x128.Idx) a.succ) = (ix1 k : S128.Idx) :=
  funext fun a => Fin.ext (by match a with | ⟨0, _⟩ => rfl)

theorem v59_V3 (c : Dev nD) (k : Fin 128) : a59 (V3 m ρ) c (ix2 (0 : Fin 1) k) = aB1 (V2 m ρ) c (ix1 k) := by
  have e : (V3 m ρ c main_v59 : S1x128.Idx → EReal) = shapeCast S1x128 (aB1 (V2 m ρ) c) shapeCasts_S128_S1x128 := by
    dsimp only [V3, W3, hostOps1]
    after_results
    rfl
  show (V3 m ρ c main_v59 : S1x128.Idx → EReal) (ix2 (0 : Fin 1) k) = _
  rw [e]
  exact (shapeCast_addUnit_apply (n := 1) ![128] (aB1 (V2 m ρ) c) shapeCasts_S128_S1x128 (ix2 (0 : Fin 1) k)).trans
    (congrArg (aB1 (V2 m ρ) c) (ix2_zero_succ k))

theorem v62_V6 (c : Dev nD) (k : Fin 128) : a62 (V6 m ρ) c (ix2 (0 : Fin 1) k) = aB2 (V5 m ρ) c (ix1 k) := by
  have e : (V6 m ρ c main_v62 : S1x128.Idx → EReal) = shapeCast S1x128 (aB2 (V5 m ρ) c) shapeCasts_S128_S1x128 := by
    dsimp only [V6, W6, hostOps3]
    after_results
    rfl
  show (V6 m ρ c main_v62 : S1x128.Idx → EReal) (ix2 (0 : Fin 1) k) = _
  rw [e]
  exact (shapeCast_addUnit_apply (n := 1) ![128] (aB2 (V5 m ρ) c) shapeCasts_S128_S1x128 (ix2 (0 : Fin 1) k)).trans
    (congrArg (aB2 (V5 m ρ) c) (ix2_zero_succ k))

theorem v65_V9 (c : Dev nD) (k : Fin 128) : a65 (V9 m ρ) c (ix2 (0 : Fin 1) k) = aB3 (V8 m ρ) c (ix1 k) := by
  have e : (V9 m ρ c main_v65 : S1x128.Idx → EReal) = shapeCast S1x128 (aB3 (V8 m ρ) c) shapeCasts_S128_S1x128 := by
    dsimp only [V9, W9, hostOps5]
    after_results
    rfl
  show (V9 m ρ c main_v65 : S1x128.Idx → EReal) (ix2 (0 : Fin 1) k) = _
  rw [e]
  exact (shapeCast_addUnit_apply (n := 1) ![128] (aB3 (V8 m ρ) c) shapeCasts_S128_S1x128 (ix2 (0 : Fin 1) k)).trans
    (congrArg (aB3 (V8 m ρ) c) (ix2_zero_succ k))

/-! ## The layers, one after the other -/

/-- The adjacency matrix the first host stretch leaves, as a matrix of extended reals. -/
abbrev adjM (c : Dev nD) : Fin 10000 → Fin 10000 → EReal := fun n j => aAdj (V1 m ρ) c (ix2 n j)

/-- The first layer's output (after its `tanh`), as the second layer finds it. -/
theorem layer1 (c : Dev nD) (n : Fin 10000) (k : Fin 128) :
    a60 (V4 m ρ) c (ix2 n k) = Ideal.tanh (Gcn.denseLayerA (adjM m ρ c)
      (Gcn.lin (fun n j => mX m c (ix2 n j)) (fun j k => mW1 m c (ix2 j k))) (fun k => mB1 m c (ix1 k)) n k) := by
  rw [v60_V4, final1_apply, v59_V3, b1_V2, adj_V3, v58_V3]
  simp only [final0_apply, x_V1, w1_V1]
  rfl

/-- The second layer's output (after its `tanh`), as the third layer finds it. -/
theorem layer2 (c : Dev nD) (n : Fin 10000) (k : Fin 128) :
    a63 (V7 m ρ) c (ix2 n k) = Ideal.tanh (Gcn.denseLayerA (adjM m ρ c)
      (Gcn.lin (fun n j => a60 (V4 m ρ) c (ix2 n j)) (fun j k => mW2 m c (ix2 j k))) (fun k => mB2 m c (ix1 k)) n k) := by
  rw [v63_V7, final3_apply, v62_V6, b2_V5, adj_V6, v61_V6]
  simp only [final2_apply, w2_V4]
  rfl

/-- The third layer's output: the result buffer. -/
theorem layer3 (c : Dev nD) (n : Fin 10000) (k : Fin 128) :
    a66 (V10 m ρ) c (ix2 n k) = Gcn.denseLayerA (adjM m ρ c)
      (Gcn.lin (fun n j => a63 (V7 m ρ) c (ix2 n j)) (fun j k => mW3 m c (ix2 j k))) (fun k => mB3 m c (ix1 k)) n k := by
  rw [v66_V10, final5_apply, v65_V9, b3_V8, adj_V9, v64_V9]
  simp only [final4_apply, w3_V7]
  rfl

/-- THE RESULT BUFFER after the whole program, read at `(n, k)`: the three-layer network in the dense form over the
    adjacency matrix the first host stretch built, of the arguments as launched. -/
theorem v66_apply (c : Dev nD) (n : Fin 10000) (k : Fin 128) :
    a66 (V10 m ρ) c (ix2 n k) = Gcn.netDenseA (adjM m ρ c) (fun n j => mX m c (ix2 n j)) (fun j k => mW1 m c (ix2 j k)) (fun k => mB1 m c (ix1 k))
      (fun j k => mW2 m c (ix2 j k)) (fun k => mB2 m c (ix1 k)) (fun j k => mW3 m c (ix2 j k)) (fun k => mB3 m c (ix1 k)) n k := by
  have e1 : (fun n j => a60 (V4 m ρ) c (ix2 n j)) = fun n j => Ideal.tanh (Gcn.denseLayerA (adjM m ρ c)
      (Gcn.lin (fun n j => mX m c (ix2 n j)) (fun j k => mW1 m c (ix2 j k))) (fun k => mB1 m c (ix1 k)) n j) :=
    funext fun n => funext fun j => layer1 m ρ c n j
  have e2 : (fun n j => a63 (V7 m ρ) c (ix2 n j)) = fun n j => Ideal.tanh (Gcn.denseLayerA (adjM m ρ c)
      (Gcn.lin (fun n j => a60 (V4 m ρ) c (ix2 n j)) (fun j k => mW2 m c (ix2 j k))) (fun k => mB2 m c (ix1 k)) n j) :=
    funext fun n => funext fun j => layer2 m ρ c n j
  rw [layer3, e2, e1]
  rfl

end Cert.KernelIdeal.Chain

end
-- ==== Proof.RefLayer.lean ====
import proofs.«404086_j7035156431295_1_alg».proof.Proof.Gen.ReferenceIdeal.Read
import proofs.«404086_j7035156431295_1_alg».proof.Proof.Spec
import proofs.«404086_j7035156431295_1_alg».proof.Proof.LibRows
import proofs.«404086_j7035156431295_1_alg».proof.Proof.LibIndex
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefVal

open Cert.ReferenceIdeal Cert.ReferenceIdeal.Read
open Idealize.ShloMosaic Idealize.ShloMosaic.ValueIdx

/-! ## Scalar facts about a node number held in a 32-bit word -/

/-- A word that reads as a nonnegative integer is not below zero, so the wrap-around
    `if a < 0 then a + 10000 else a` leaves it alone. -/
theorem wrap_eq (a : BitVec 32) (h0 : 0 ≤ a.toInt) :
    Scalar.select (IntOp.cmpi .slt a 0#32) (IntOp.addi a 10000#32) a = a := by
  have hs : a.slt 0#32 = false := by
    simp only [BitVec.slt, BitVec.toInt_zero, decide_eq_false_iff_not, not_lt]
    exact h0
  unfold Scalar.select IntOp.cmpi
  simp [hs]

/-- For a word in the node range, "reads as `n`" is "its clamp into the node range is `n`". -/
theorem toInt_eq_iff_clamp (a : BitVec 32) (h0 : 0 ≤ a.toInt) (h1 : a.toInt < 10000) (n : Fin 10000)
    (hb : min a.toInt.toNat 9999 < 10000) :
    a.toInt = (n.val : ℤ) ↔ (⟨min a.toInt.toNat 9999, hb⟩ : Fin 10000) = n := by
  rw [Fin.ext_iff]
  show a.toInt = (n.val : ℤ) ↔ min a.toInt.toNat 9999 = n.val
  omega

/-! ## The two rows of the edge list -/

/-- Row 0 of the edge list, cut out and flattened, read at `e`. -/
theorem v1_apply (ei : IVec S2x640000 32) (e : Fin 640000) :
    val_main_v1 (F := Ideal) ei (ix1 e) = ei (ix2 (0 : Fin 2) e) := by
  rw [val_main_v1_apply, val_main_v0_apply]
  congr 1
  funext a
  match a with
  | ⟨0, _⟩ => rfl
  | ⟨1, _⟩ => exact Fin.ext (by show e.val % 640000 = e.val; have := e.isLt; omega)

/-- Row 1 of the edge list, cut out and flattened, read at `e`. -/
theorem v3_apply (ei : IVec S2x640000 32) (e : Fin 640000) :
    val_main_v3 (F := Ideal) ei (ix1 e) = ei (ix2 (1 : Fin 2) e) := by
  rw [val_main_v3_apply, val_main_v2_apply]
  congr 1
  funext a
  match a with
  | ⟨0, _⟩ => rfl
  | ⟨1, _⟩ => exact Fin.ext (by show e.val % 640000 = e.val; have := e.isLt; omega)

/-! ## The degree and its inverse square root -/

/-- The column of raw target rows, read at `(e, 0)`. -/
theorem v7_apply (ei : IVec S2x640000 32) (e : Fin 640000) :
    val_main_v7 (F := Ideal) ei (ix2 e (0 : Fin 1)) = ei (ix2 (1 : Fin 2) e) := by
  rw [val_main_v7_apply, ← v3_apply ei e]
  congr 1
  funext a
  match a with
  | ⟨0, _⟩ => rfl

/-- Under the range hypothesis, "the raw target row of edge `e` reads as `n`" is "`e` points at `n`". -/
theorem dst_filter (ei : IVec S2x640000 32) (hr : Gcn.InRange ei) (n : Fin 10000) :
    Finset.univ.filter (fun e : Fin 640000 => (ei (ix2 (1 : Fin 2) e)).toInt = (n.val : ℤ))
      = Finset.univ.filter (fun e : Fin 640000 => Gcn.dstOf ei e = n) := by
  refine Finset.filter_congr fun e _ => ?_
  exact toInt_eq_iff_clamp _ (hr _).1 (hr _).2 n _

/-- The scatter-add of ones by the raw target row, read at `n`. -/
theorem v8_read (ei : IVec S2x640000 32) (n : Fin 10000) :
    val_main_v8 (F := Ideal) ei (ix1 n)
      = val_main_v6 (F := Ideal) (ix1 n) + ∑ e ∈ Finset.univ.filter (fun e : Fin 640000 =>
          (val_main_v7 (F := Ideal) ei (ix2 e (0 : Fin 1))).toInt = (n.val : ℤ)), val_main_v5 (F := Ideal) (ix1 e) :=
  vecScatterAdd_apply (N := 10000) (E := 640000) (w := 32) scatter_S10000_S640000x1_S640000_n_0_0_1.wf
    (val_main_v6 (F := Ideal)) (val_main_v7 (F := Ideal) ei) (val_main_v5 (F := Ideal)) n

/-- The in-degree count plus the self-loop, then its inverse square root: `dis`. -/
theorem v11_apply (ei : IVec S2x640000 32) (hr : Gcn.InRange ei) (n : Fin 10000) :
    val_main_v11 (F := Ideal) ei (ix1 n) = Gcn.dis (Gcn.dstOf ei) n := by
  rw [val_main_v11_apply, val_main_v10_apply, val_main_v9_apply, val_main_cst_1_apply]
  have h8 : val_main_v8 (F := Ideal) ei (ix1 n)
      = 0 + ∑ _e ∈ Finset.univ.filter (fun e : Fin 640000 => Gcn.dstOf ei e = n), Gcn.one := by
    rw [v8_read, val_main_v6_apply, val_main_cst_0_apply, Ideal.ofBits_def, Ideal.ofBits_zero_f32]
    simp only [v7_apply]
    rw [dst_filter ei hr n]
    refine congrArg (fun t => (0 : EReal) + t) (Finset.sum_congr rfl fun e _ => ?_)
    rw [val_main_v5_apply, val_main_cst_apply]
    rfl
  rw [h8, Ideal.hostUnary_rsqrt_def, Ideal.addf_def, Ideal.ofBits_def]
  rfl

/-! ## The wrapped index columns -/

/-- The wrapped source row, as a column, read at `(e, 0)`: in range, the wrap does nothing. -/
theorem v17_apply (ei : IVec S2x640000 32) (hr : Gcn.InRange ei) (e : Fin 640000) :
    val_main_v17 (F := Ideal) ei (ix2 e (0 : Fin 1)) = ei (ix2 (0 : Fin 2) e) := by
  rw [val_main_v17_apply]
  have hi : idx_main_v17 (ix2 e (0 : Fin 1)) = ix1 e := by
    funext a
    match a with
    | ⟨0, _⟩ => rfl
  rw [hi, val_main_v16_apply, val_main_v13_apply, val_main_v15_apply, val_main_v12_apply, val_main_v14_apply,
    val_main_c_apply, val_main_c_2_apply, v1_apply]
  exact wrap_eq _ (hr _).1

/-- The wrapped target row, as a column, read at `(e, 0)`. -/
theorem v24_apply (ei : IVec S2x640000 32) (hr : Gcn.InRange ei) (e : Fin 640000) :
    val_main_v24 (F := Ideal) ei (ix2 e (0 : Fin 1)) = ei (ix2 (1 : Fin 2) e) := by
  rw [val_main_v24_apply]
  have hi : idx_main_v24 (ix2 e (0 : Fin 1)) = ix1 e := by
    funext a
    match a with
    | ⟨0, _⟩ => rfl
  rw [hi, val_main_v23_apply, val_main_v20_apply, val_main_v22_apply, val_main_v19_apply, val_main_v21_apply,
    val_main_c_3_apply, val_main_c_4_apply, v3_apply]
  exact wrap_eq _ (hr _).1

/-- The wrapped source row once more (the copy the row gather uses), read at `(e, 0)`. -/
theorem v32_apply (ei : IVec S2x640000 32) (hr : Gcn.InRange ei) (e : Fin 640000) :
    val_main_v32 (F := Ideal) ei (ix2 e (0 : Fin 1)) = ei (ix2 (0 : Fin 2) e) := by
  rw [val_main_v32_apply]
  have hi : idx_main_v32 (ix2 e (0 : Fin 1)) = ix1 e := by
    funext a
    match a with
    | ⟨0, _⟩ => rfl
  rw [hi, val_main_v31_apply, val_main_v28_apply, val_main_v30_apply, val_main_v27_apply, val_main_v29_apply,
    val_main_c_5_apply, val_main_c_6_apply, v1_apply]
  exact wrap_eq _ (hr _).1

/-! ## The edge weight -/

/-- `dis` gathered at the wrapped source. -/
theorem v18_read (ei : IVec S2x640000 32) (e : Fin 640000) :
    val_main_v18 (F := Ideal) ei (ix1 e)
      = val_main_v11 (F := Ideal) ei (ix1 (⟨min (val_main_v17 (F := Ideal) ei (ix2 e (0 : Fin 1))).toInt.toNat (10000 - 1),
          by omega⟩ : Fin 10000)) :=
  vecGather_apply (N := 10000) (E := 640000) (w := 32) (by omega) gather_S10000_S640000x1_S640000_n_0_n_n_0_1_1.wf
    (val_main_v11 (F := Ideal) ei) (val_main_v17 (F := Ideal) ei) e

/-- `dis` gathered at the wrapped target. -/
theorem v25_read (ei : IVec S2x640000 32) (e : Fin 640000) :
    val_main_v25 (F := Ideal) ei (ix1 e)
      = val_main_v11 (F := Ideal) ei (ix1 (⟨min (val_main_v24 (F := Ideal) ei (ix2 e (0 : Fin 1))).toInt.toNat (10000 - 1),
          by omega⟩ : Fin 10000)) :=
  vecGather_apply (N := 10000) (E := 640000) (w := 32) (by omega) gather_S10000_S640000x1_S640000_n_0_n_n_0_1_1.wf
    (val_main_v11 (F := Ideal) ei) (val_main_v24 (F := Ideal) ei) e

theorem v18_apply (ei : IVec S2x640000 32) (hr : Gcn.InRange ei) (e : Fin 640000) :
    val_main_v18 (F := Ideal) ei (ix1 e) = Gcn.dis (Gcn.dstOf ei) (Gcn.srcOf ei e) := by
  rw [v18_read]
  refine (congrArg (fun j : Fin 10000 => val_main_v11 (F := Ideal) ei (ix1 j)) (Fin.ext ?_)).trans
    (v11_apply ei hr (Gcn.srcOf ei e))
  show min (val_main_v17 (F := Ideal) ei (ix2 e (0 : Fin 1))).toInt.toNat (10000 - 1)
    = min (ei (ix2 (0 : Fin 2) e)).toInt.toNat 9999
  rw [v17_apply ei hr e]

theorem v25_apply (ei : IVec S2x640000 32) (hr : Gcn.InRange ei) (e : Fin 640000) :
    val_main_v25 (F := Ideal) ei (ix1 e) = Gcn.dis (Gcn.dstOf ei) (Gcn.dstOf ei e) := by
  rw [v25_read]
  refine (congrArg (fun j : Fin 10000 => val_main_v11 (F := Ideal) ei (ix1 j)) (Fin.ext ?_)).trans
    (v11_apply ei hr (Gcn.dstOf ei e))
  show min (val_main_v24 (F := Ideal) ei (ix2 e (0 : Fin 1))).toInt.toNat (10000 - 1)
    = min (ei (ix2 (1 : Fin 2) e)).toInt.toNat 9999
  rw [v24_apply ei hr e]

/-- The weight of edge `e`: `dis` at its source times `dis` at its target. -/
theorem v26_apply (ei : IVec S2x640000 32) (hr : Gcn.InRange ei) (e : Fin 640000) :
    val_main_v26 (F := Ideal) ei (ix1 e) = Gcn.nrm (Gcn.srcOf ei) (Gcn.dstOf ei) e := by
  rw [val_main_v26_apply, v18_apply ei hr e, v25_apply ei hr e, Ideal.mulf_def]
  rfl

/-! ## Features times weights -/

/-- The matrix product `h W` read at `(n, c)`. -/
theorem v4_apply (h : S10000x128.Idx → EReal) (W : S128x128.Idx → EReal) (n : Fin 10000) (c : Fin 128) :
    val_main_v4 (F := Ideal) h W (ix2 n c)
      = Gcn.lin (fun n j => h (ix2 n j)) (fun j k => W (ix2 j k)) n c := by
  rw [val_main_v4_apply]
  unfold Gcn.lin
  refine Finset.sum_congr rfl fun k _ => ?_
  have hl : lidx_main_v4 (ix2 n c) k = ix2 n k := by
    funext a
    match a with
    | ⟨0, _⟩ => rfl
    | ⟨1, _⟩ => rfl
  have hrr : ridx_main_v4 (ix2 n c) k = ix2 k c := by
    funext a
    match a with
    | ⟨0, _⟩ => rfl
    | ⟨1, _⟩ => rfl
  rw [hl, hrr]

/-! ## The aggregation over incoming edges -/

/-- The rows of `h W` gathered at the wrapped source. -/
theorem v33_read (h : S10000x128.Idx → EReal) (ei : IVec S2x640000 32) (W : S128x128.Idx → EReal)
    (e : Fin 640000) (c : Fin 128) :
    val_main_v33 (F := Ideal) h ei W (ix2 e c)
      = val_main_v4 (F := Ideal) h W (ix2 (⟨min (val_main_v32 (F := Ideal) ei (ix2 e (0 : Fin 1))).toInt.toNat (10000 - 1),
          by omega⟩ : Fin 10000) c) :=
  rowGather_apply (N := 10000) (E := 640000) (C := 128) (w := 32) (by omega)
    gather_S10000x128_S640000x1_S640000x128_1_0_n_n_0_1_1128.wf
    (val_main_v4 (F := Ideal) h W) (val_main_v32 (F := Ideal) ei) e c

theorem v33_apply (h : S10000x128.Idx → EReal) (ei : IVec S2x640000 32) (W : S128x128.Idx → EReal)
    (hr : Gcn.InRange ei) (e : Fin 640000) (c : Fin 128) :
    val_main_v33 (F := Ideal) h ei W (ix2 e c)
      = Gcn.lin (fun n j => h (ix2 n j)) (fun j k => W (ix2 j k)) (Gcn.srcOf ei e) c := by
  rw [v33_read]
  refine (congrArg (fun j : Fin 10000 => val_main_v4 (F := Ideal) h W (ix2 j c)) (Fin.ext ?_)).trans
    (v4_apply h W (Gcn.srcOf ei e) c)
  show min (val_main_v32 (F := Ideal) ei (ix2 e (0 : Fin 1))).toInt.toNat (10000 - 1)
    = min (ei (ix2 (0 : Fin 2) e)).toInt.toNat 9999
  rw [v32_apply ei hr e]

/-- The edge weights spread along the feature axis. -/
theorem v35_apply (ei : IVec S2x640000 32) (e : Fin 640000) (c : Fin 128) :
    val_main_v35 (F := Ideal) ei (ix2 e c) = val_main_v26 (F := Ideal) ei (ix1 e) := by
  rw [val_main_v35_apply, val_main_v34_apply]
  congr 1
  funext a
  match a with
  | ⟨0, _⟩ => rfl

/-- The column of raw target rows the row scatter uses, read at `(e, 0)`. -/
theorem v38_apply (ei : IVec S2x640000 32) (e : Fin 640000) :
    val_main_v38 (F := Ideal) ei (ix2 e (0 : Fin 1)) = ei (ix2 (1 : Fin 2) e) := by
  rw [val_main_v38_apply, ← v3_apply ei e]
  congr 1
  funext a
  match a with
  | ⟨0, _⟩ => rfl

/-- The row scatter-add of the weighted source rows by the raw target row, read at `(n, c)`. -/
theorem v39_read (h : S10000x128.Idx → EReal) (ei : IVec S2x640000 32) (W : S128x128.Idx → EReal)
    (n : Fin 10000) (c : Fin 128) :
    val_main_v39 (F := Ideal) h ei W (ix2 n c)
      = val_main_v37 (F := Ideal) (ix2 n c) + ∑ e ∈ Finset.univ.filter (fun e : Fin 640000 =>
          (val_main_v38 (F := Ideal) ei (ix2 e (0 : Fin 1))).toInt = (n.val : ℤ)),
          val_main_v36 (F := Ideal) h ei W (ix2 e c) :=
  rowScatterAdd_apply (N := 10000) (E := 640000) (C := 128) (w := 32)
    scatter_S10000x128_S640000x1_S640000x128_1_0_0_1.wf
    (val_main_v37 (F := Ideal)) (val_main_v38 (F := Ideal) ei) (val_main_v36 (F := Ideal) h ei W) n c

/-- The sum, over the edges into `n`, of the source's row of `h W` times the edge weight. -/
theorem v39_apply (h : S10000x128.Idx → EReal) (ei : IVec S2x640000 32) (W : S128x128.Idx → EReal)
    (hr : Gcn.InRange ei) (n : Fin 10000) (c : Fin 128) :
    val_main_v39 (F := Ideal) h ei W (ix2 n c)
      = 0 + ∑ e ∈ Finset.univ.filter (fun e : Fin 640000 => Gcn.dstOf ei e = n),
          Gcn.lin (fun n j => h (ix2 n j)) (fun j k => W (ix2 j k)) (Gcn.srcOf ei e) c
            * Gcn.nrm (Gcn.srcOf ei) (Gcn.dstOf ei) e := by
  rw [v39_read, val_main_v37_apply, val_main_cst_7_apply, Ideal.ofBits_def, Ideal.ofBits_zero_f32]
  simp only [v38_apply]
  rw [dst_filter ei hr n]
  refine congrArg (fun t => (0 : EReal) + t) (Finset.sum_congr rfl fun e _ => ?_)
  rw [val_main_v36_apply, v33_apply h ei W hr e c, v35_apply, v26_apply ei hr e, Ideal.mulf_def]

/-! ## The self-loop term and the bias -/

/-- `dis n · dis n` spread along the feature axis. -/
theorem v42_apply (ei : IVec S2x640000 32) (hr : Gcn.InRange ei) (n : Fin 10000) (c : Fin 128) :
    val_main_v42 (F := Ideal) ei (ix2 n c) = Gcn.dis (Gcn.dstOf ei) n * Gcn.dis (Gcn.dstOf ei) n := by
  rw [val_main_v42_apply, val_main_v41_apply]
  have hi : idx_main_v41 (idx_main_v42 (ix2 n c)) = ix1 n := by
    funext a
    match a with
    | ⟨0, _⟩ => rfl
  rw [hi, val_main_v40_apply, v11_apply ei hr n, Ideal.mulf_def]

/-- The bias spread along the node axis. -/
theorem v46_apply (b : S128.Idx → EReal) (n : Fin 10000) (c : Fin 128) :
    val_main_v46 (F := Ideal) b (ix2 n c) = b (ix1 c) := by
  rw [val_main_v46_apply, val_main_v45_apply]
  congr 1
  funext a
  match a with
  | ⟨0, _⟩ => rfl

/-- ONE LAYER OF THE REFERENCE, read at `(n, k)`: with the edge list in range, the first layer's pre-activation as a
    function of ANY feature array `h`, weight matrix `W` and bias `b` is the edge-list form of the layer applied to `h W`. -/
theorem layer_apply (h : S10000x128.Idx → EReal) (ei : IVec S2x640000 32) (W : S128x128.Idx → EReal) (b : S128.Idx → EReal)
    (hr : Gcn.InRange ei) (n : Fin 10000) (k : Fin 128) :
    val_main_v47 (F := Ideal) h ei W b (ix2 n k)
      = Gcn.sparseLayer (Gcn.srcOf ei) (Gcn.dstOf ei) (Gcn.lin (fun n j => h (ix2 n j)) (fun j k => W (ix2 j k))) (fun k => b (ix1 k)) n k := by
  rw [val_main_v47_apply, val_main_v44_apply, val_main_v43_apply, v39_apply h ei W hr n k, v4_apply h W n k,
    v42_apply ei hr n k, v46_apply b n k, Ideal.addf_def, Ideal.addf_def, Ideal.mulf_def]
  rfl

end Cert.ReferenceIdeal.RefVal

end
-- ==== Proof.RefNet.lean ====
import proofs.«404086_j7035156431295_1_alg».proof.Proof.RefLayer
import proofs.«404086_j7035156431295_1_alg».proof.Proof.Spec

set_option maxRecDepth 16384

noncomputable section

open scoped BigOperators

namespace Cert.ReferenceIdeal.RefVal

open Cert.ReferenceIdeal Cert.ReferenceIdeal.Read
open Idealize.ShloMosaic Idealize.ShloMosaic.ValueIdx

/-! The reference applies the same layer three times: the second and third layers' operations are the first layer's,
    applied to the previous layer's output after its `tanh`. So one reading of the layer serves all three. -/

variable (x1 : S10000x128.Idx → EReal) (x2 : IVec S2x640000 32) (x3 : S128x128.Idx → EReal) (x4 : S128.Idx → EReal)
  (x5 : S128x128.Idx → EReal) (x6 : S128.Idx → EReal) (x7 : S128x128.Idx → EReal) (x8 : S128.Idx → EReal)

/-- The second layer's pre-activation is the first layer's function of the first layer's output. -/
theorem v92_eq : val_main_v92 (F := Ideal) x1 x2 x3 x4 x5 x6
    = val_main_v47 (F := Ideal) (val_main_v48 (F := Ideal) x1 x2 x3 x4) x2 x5 x6 := rfl

/-- The third layer (the result) is the first layer's function of the second layer's output. -/
theorem v137_eq : val_main_v137 (F := Ideal) x1 x2 x3 x4 x5 x6 x7 x8
    = val_main_v47 (F := Ideal) (val_main_v93 (F := Ideal) x1 x2 x3 x4 x5 x6) x2 x7 x8 := rfl

/-- The first layer's output after its `tanh`. -/
theorem v48_apply (hr : Gcn.InRange x2) (n : Fin 10000) (k : Fin 128) :
    val_main_v48 (F := Ideal) x1 x2 x3 x4 (ix2 n k)
      = Ideal.tanh (Gcn.sparseLayer (Gcn.srcOf x2) (Gcn.dstOf x2)
          (Gcn.lin (fun n j => x1 (ix2 n j)) (fun j k => x3 (ix2 j k))) (fun k => x4 (ix1 k)) n k) := by
  rw [val_main_v48_apply, Ideal.hostUnary_tanh_def, layer_apply _ _ _ _ hr]

/-- The second layer's output after its `tanh`. -/
theorem v93_apply (hr : Gcn.InRange x2) (n : Fin 10000) (k : Fin 128) :
    val_main_v93 (F := Ideal) x1 x2 x3 x4 x5 x6 (ix2 n k)
      = Ideal.tanh (Gcn.sparseLayer (Gcn.srcOf x2) (Gcn.dstOf x2)
          (Gcn.lin (fun n j => val_main_v48 (F := Ideal) x1 x2 x3 x4 (ix2 n j)) (fun j k => x5 (ix2 j k))) (fun k => x6 (ix1 k)) n k) := by
  rw [val_main_v93_apply, Ideal.hostUnary_tanh_def, v92_eq, layer_apply _ _ _ _ hr]

/-- THE REFERENCE'S RESULT read at `(n, k)`: with the edge list in range, the three-layer network in the edge-list form. -/
theorem ref_apply (hr : Gcn.InRange x2) (n : Fin 10000) (k : Fin 128) :
    val_main_v137 (F := Ideal) x1 x2 x3 x4 x5 x6 x7 x8 (ix2 n k)
      = Gcn.netSparse (Gcn.srcOf x2) (Gcn.dstOf x2) (fun n j => x1 (ix2 n j)) (fun j k => x3 (ix2 j k)) (fun k => x4 (ix1 k))
          (fun j k => x5 (ix2 j k)) (fun k => x6 (ix1 k)) (fun j k => x7 (ix2 j k)) (fun k => x8 (ix1 k)) n k := by
  rw [v137_eq, layer_apply _ _ _ _ hr]
  unfold Gcn.netSparse
  simp only [v93_apply _ _ _ _ _ _ hr, v48_apply _ _ _ _ hr]

end Cert.ReferenceIdeal.RefVal

end
-- ==== Proof.lean ====
/-
  The certificate of a three-layer graph convolution network: a kernel program that builds the dense normalized
  adjacency matrix `A` (with self-loops) once on the host and computes each layer as `A · (h W) + b` on the matrix
  unit, against a reference that computes each layer from the edge list (gather the source rows of `h W`, scale by the
  edge weights, sum into the target rows, add the self-loop term and the bias), with `tanh` after the first two layers.

  Over the extended reals the two agree when every entry of the edge list is a node number (the added precondition):
  then row `n` of `A · y` regroups, edge by edge, into the reference's sum over the edges into `n`, because the edge
  weights `deg^(-1/2)[src] · deg^(-1/2)[dst]` and the self-loop weights are nonnegative and a product distributes over a
  sum of nonnegative extended reals whatever the other factor is. The format changes (f32 to bf16 and back) are the
  identity over the extended reals, and both programs form `h W` as the same sum. Finiteness of the inputs is not used.

  The kernel program's run names its result buffer at the last boundary of the fold through the six regions, which is
  read region by region down to the dense form of the network; the reference's run is read one operation at a time
  to the edge-list form; the specification joins the two.
-/
import proofs.«404086_j7035156431295_1_alg».proof.Defs
import proofs.«404086_j7035156431295_1_alg».proof.Proof.Gen.Kernel
import proofs.«404086_j7035156431295_1_alg».proof.Proof.Gen.Kernel.Frame
import proofs.«404086_j7035156431295_1_alg».proof.Proof.Gen.KernelIdeal
import proofs.«404086_j7035156431295_1_alg».proof.Proof.Gen.KernelIdeal.Frame
import proofs.«404086_j7035156431295_1_alg».proof.Proof.Gen.ReferenceIdeal
import proofs.«404086_j7035156431295_1_alg».proof.Proof.Gen.ReferenceIdeal.Run
import proofs.«404086_j7035156431295_1_alg».proof.Proof.Gen.ReferenceIdeal.Read
import proofs.«404086_j7035156431295_1_alg».proof.Proof.Gen.Pre_finite_inputs
import proofs.«404086_j7035156431295_1_alg».proof.Proof.Spec
import proofs.«404086_j7035156431295_1_alg».proof.Proof.SpecNet
import proofs.«404086_j7035156431295_1_alg».proof.Proof.PreRange
import proofs.«404086_j7035156431295_1_alg».proof.Proof.KRun
import proofs.«404086_j7035156431295_1_alg».proof.Proof.KAdj
import proofs.«404086_j7035156431295_1_alg».proof.Proof.KChain
import proofs.«404086_j7035156431295_1_alg».proof.Proof.RefNet
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' results agree index by index: the dense form over the host-built adjacency matrix is the
    edge-list form, for an edge list in range. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hr : Gcn.InRange (Cert.KernelIdeal.AdjVal.eiOf m c)) :
    Cert.ReferenceIdeal.Read.val_main_v137 (F := Ideal)
        (Cert.KernelIdeal.Chain.mX m c) (Cert.KernelIdeal.AdjVal.eiOf m c) (Cert.KernelIdeal.Chain.mW1 m c) (Cert.KernelIdeal.Chain.mB1 m c)
        (Cert.KernelIdeal.Chain.mW2 m c) (Cert.KernelIdeal.Chain.mB2 m c) (Cert.KernelIdeal.Chain.mW3 m c) (Cert.KernelIdeal.Chain.mB3 m c)
      = Cert.KernelIdeal.Arr.a66 (Cert.KernelIdeal.Gen.V10 (F := Ideal) m ρ) c := by
  funext i
  obtain ⟨n, k, rfl⟩ : ∃ (n : Fin 10000) (k : Fin 128), i = ix2 n k := ⟨i 0, i 1, eq_ix2 i⟩
  rw [Cert.ReferenceIdeal.RefVal.ref_apply _ _ _ _ _ _ _ _ hr n k, Cert.KernelIdeal.Chain.v66_apply m ρ c n k]
  have hadj : Cert.KernelIdeal.Chain.adjM m ρ c
      = Gcn.adj (Gcn.srcOf (Cert.KernelIdeal.AdjVal.eiOf m c)) (Gcn.dstOf (Cert.KernelIdeal.AdjVal.eiOf m c)) :=
    funext fun n => funext fun j => Cert.KernelIdeal.AdjVal.adj_apply m ρ c hr n j
  rw [hadj, Gcn.netDenseA_adj, Gcn.netDense_eq_netSparse]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program's run leaves its result buffer at the dense form, the reference's at the edge-list form, of
    arguments that agree; the precondition puts the edge list in range, and there the two forms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W10 (F := Ideal) m ρ c (Proc.devRef .tc Cert.KernelIdeal.main_v66),
    Cert.KernelIdeal.RunValue.run_value (F := Ideal) m ρ, ?_⟩
  refine (θ_run Cert.ReferenceIdeal.defs _ _).mono (fun r h c => ⟨(h c).1.trans ?_, (h c).2⟩)
    (Cert.ReferenceIdeal.Value.run (F := Ideal) m' ρ')
  have hr : Gcn.InRange (Cert.KernelIdeal.AdjVal.eiOf m c) :=
    @Cert.Pre_finite_inputs.Range.inRange_of_pre Cert.Pre_finite_inputs.Gen.facts _ _ _ _ _ _ _ _ _ (hpre c)
  obtain ⟨e0, e1, e2, e3, e4, e5, e6, e7, e8⟩ := hagree c
  rw [Cert.ReferenceIdeal.Read.val_main_v137_eq, e1, e2, e3, e4, e5, e6, e7, e8]
  exact result_eq m ρ c hr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
